-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x64 : Shape := ⟨2, ![65536, 64]⟩
abbrev S64x512 : Shape := ⟨2, ![64, 512]⟩
abbrev S512 : Shape := ⟨1, ![512]⟩
abbrev S256x256 : Shape := ⟨2, ![256, 256]⟩
abbrev S256x128 : Shape := ⟨2, ![256, 128]⟩
abbrev S256x2048 : Shape := ⟨2, ![256, 2048]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part2 {F : FTy → Type} [FloatOps F] (main_arg7 : FVec F S256x128 .f32) (main_arg8 : FVec F S256x2048 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x2048 .f32 := Host.absf main_arg8
  let main_cst_14 : FVec F S_ .f32 := constant S_ .f32 0x7F800000#32
  let main_v40 : FVec F S256x2048 .f32 := broadcastInDim S256x2048 ![] bcast_S_S256x2048 main_cst_14
  let main_v41 : IVec S256x2048 1 := cmpf .olt main_v39 main_v40
  let main_c_15 : IVec S_ 1 := constantI S_ 1 1#1
  let main_v42 : IVec S_ 1 := (fun x v => Host.reduce IntOp.andi x v reducesTo_S256x2048_S_d0_1 h_S_) main_v41 main_c_15
  let main_v43 : IVec S_ 1 := andi main_v38 main_v42
  main_v43

def fn_part1 {F : FTy → Type} [FloatOps F] (main_arg4 : FVec F S256x256 .f32) (main_arg5 : FVec F S64x512 .f32) (main_arg6 : FVec F S512 .f32) (main_arg7 : FVec F S256x128 .f32) (main_arg8 : FVec F S256x2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S65536x64 .f32) (main_arg2 : FVec F S64x512 .f32) (main_arg3 : FVec F S512 .f32) (main_arg4 : FVec F S256x256 .f32) (main_arg5 : FVec F S64x512 .f32) (main_arg6 : FVec F S512 .f32) (main_arg7 : FVec F S256x128 .f32) (main_arg8 : FVec F S256x2048 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S65536x64 : Shape := ⟨2, ![65536, 64]⟩
abbrev S64x512 : Shape := ⟨2, ![64, 512]⟩
abbrev S512 : Shape := ⟨1, ![512]⟩
abbrev S256x256 : Shape := ⟨2, ![256, 256]⟩
abbrev S256x128 : Shape := ⟨2, ![256, 128]⟩
abbrev S256x2048 : Shape := ⟨2, ![256, 2048]⟩
abbrev S1x512 : Shape := ⟨2, ![1, 512]⟩
abbrev S65536x384 : Shape := ⟨2, ![65536, 384]⟩
abbrev S1024x512 : Shape := ⟨2, ![1024, 512]⟩
abbrev S1024x64 : Shape := ⟨2, ![1024, 64]⟩
abbrev S1024x384 : Shape := ⟨2, ![1024, 384]⟩
abbrev S1024x256 : Shape := ⟨2, ![1024, 256]⟩
abbrev S1024x128 : Shape := ⟨2, ![1024, 128]⟩
abbrev S1024x2048 : Shape := ⟨2, ![1024, 2048]⟩
abbrev S1024x32x3 : Shape := ⟨3, ![1024, 32, 3]⟩
abbrev S1024x32x5 : Shape := ⟨3, ![1024, 32, 5]⟩
abbrev S1024x32 : Shape := ⟨2, ![1024, 32]⟩
abbrev S1024x3 : Shape := ⟨2, ![1024, 3]⟩
abbrev S1024x5 : Shape := ⟨2, ![1024, 5]⟩
abbrev S1024x32x1 : Shape := ⟨3, ![1024, 32, 1]⟩
abbrev S1024x1x3 : Shape := ⟨3, ![1024, 1, 3]⟩
abbrev S1024x1x5 : Shape := ⟨3, ![1024, 1, 5]⟩
abbrev S1024x96 : Shape := ⟨2, ![1024, 96]⟩
abbrev S1024x160 : Shape := ⟨2, ![1024, 160]⟩

abbrev nBuf : Space → Nat
  | .hbm => 12
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S64x512, .f32⟩
  | .hbm, ⟨3, _⟩ => ⟨S512, .f32⟩
  | .hbm, ⟨4, _⟩ => ⟨S256x256, .f32⟩
  | .hbm, ⟨5, _⟩ => ⟨S64x512, .f32⟩
  | .hbm, ⟨6, _⟩ => ⟨S512, .f32⟩
  | .hbm, ⟨7, _⟩ => ⟨S256x128, .f32⟩
  | .hbm, ⟨8, _⟩ => ⟨S256x2048, .f32⟩
  | .hbm, ⟨9, _⟩ => ⟨S1x512, .f32⟩
  | .hbm, ⟨10, _⟩ => ⟨S1x512, .f32⟩
  | .hbm, ⟨11, _⟩ => ⟨S65536x384, .f32⟩
  | .local _ .vmem, ⟨0, _⟩ => ⟨S1024x512, .f32⟩
  | .local _ .vmem, ⟨1, _⟩ => ⟨S1024x512, .f32⟩
  | .local _ .vmem, ⟨2, _⟩ => ⟨S1024x64, .f32⟩
  | .local _ .vmem, ⟨3, _⟩ => ⟨S1024x64, .f32⟩
  | .local _ .vmem, ⟨4, _⟩ => ⟨S64x512, .f32⟩
  | .local _ .vmem, ⟨5, _⟩ => ⟨S1x512, .f32⟩
  | .local _ .vmem, ⟨6, _⟩ => ⟨S256x256, .f32⟩
  | .local _ .vmem, ⟨7, _⟩ => ⟨S64x512, .f32⟩
  | .local _ .vmem, ⟨8, _⟩ => ⟨S1x512, .f32⟩
  | .local _ .vmem, ⟨9, _⟩ => ⟨S256x128, .f32⟩
  | .local _ .vmem, ⟨10, _⟩ => ⟨S256x2048, .f32⟩
  | .local _ .vmem, ⟨11, _⟩ => ⟨S1024x384, .f32⟩
  | .local _ .vmem, ⟨12, _⟩ => ⟨S1024x384, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S1024x64_S1024x64_0_0 : ∀ a, (![0, 0] : Fin 2 → Nat) a + S1024x64.size a ≤ S1024x64.size a
  h_S1024x64 : 0 < S1024x64.numel
  slices_S1024x512_o0_0_S1024x256 : S1024x512.Slices ![0, 0] S1024x256
  slices_S1024x512_o0_256_S1024x256 : S1024x512.Slices ![0, 256] S1024x256
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S256x2048_S256x2048_0_0 : ∀ a, (![0, 0] : Fin 2 → Nat) a + S256x2048.size a ≤ S256x2048.size a
  h_S256x2048 : 0 < S256x2048.numel
  slices_S1024x2048_o0_0_S1024x32 : S1024x2048.Slices ![0, 0] S1024x32
  slices_S1024x2048_o0_1024_S1024x32 : S1024x2048.Slices ![0, 1024] S1024x32
  slices_S1024x256_o0_0_S1024x3 : S1024x256.Slices ![0, 0] S1024x3
  slices_S1024x256_o0_96_S1024x5 : S1024x256.Slices ![0, 96] S1024x5
  shapeCasts_S1024x32_S1024x32x1 : S1024x32.ShapeCasts S1024x32x1
  shapeCasts_S1024x3_S1024x1x3 : S1024x3.ShapeCasts S1024x1x3
  broadcasts_S1024x32x1_S1024x32x3 : S1024x32x1.Broadcasts S1024x32x3
  broadcasts_S1024x1x3_S1024x32x3 : S1024x1x3.Broadcasts S1024x32x3
  shapeCasts_S1024x5_S1024x1x5 : S1024x5.ShapeCasts S1024x1x5
  broadcasts_S1024x32x1_S1024x32x5 : S1024x32x1.Broadcasts S1024x32x5
  broadcasts_S1024x1x5_S1024x32x5 : S1024x1x5.Broadcasts S1024x32x5
  slices_S1024x2048_o0_32_S1024x32 : S1024x2048.Slices ![0, 32] S1024x32
  slices_S1024x2048_o0_1056_S1024x32 : S1024x2048.Slices ![0, 1056] S1024x32
  slices_S1024x256_o0_3_S1024x3 : S1024x256.Slices ![0, 3] S1024x3
  slices_S1024x256_o0_101_S1024x5 : S1024x256.Slices ![0, 101] S1024x5
  slices_S1024x2048_o0_64_S1024x32 : S1024x2048.Slices ![0, 64] S1024x32
  slices_S1024x2048_o0_1088_S1024x32 : S1024x2048.Slices ![0, 1088] S1024x32
  slices_S1024x256_o0_6_S1024x3 : S1024x256.Slices ![0, 6] S1024x3
  slices_S1024x256_o0_106_S1024x5 : S1024x256.Slices ![0, 106] S1024x5
  slices_S1024x2048_o0_96_S1024x32 : S1024x2048.Slices ![0, 96] S1024x32
  slices_S1024x2048_o0_1120_S1024x32 : S1024x2048.Slices ![0, 1120] S1024x32
  slices_S1024x256_o0_9_S1024x3 : S1024x256.Slices ![0, 9] S1024x3
  slices_S1024x256_o0_111_S1024x5 : S1024x256.Slices ![0, 111] S1024x5
  slices_S1024x2048_o0_128_S1024x32 : S1024x2048.Slices ![0, 128] S1024x32
  slices_S1024x2048_o0_1152_S1024x32 : S1024x2048.Slices ![0, 1152] S1024x32
  slices_S1024x256_o0_12_S1024x3 : S1024x256.Slices ![0, 12] S1024x3
  slices_S1024x256_o0_116_S1024x5 : S1024x256.Slices ![0, 116] S1024x5
  slices_S1024x2048_o0_160_S1024x32 : S1024x2048.Slices ![0, 160] S1024x32
  slices_S1024x2048_o0_1184_S1024x32 : S1024x2048.Slices ![0, 1184] S1024x32
  slices_S1024x256_o0_15_S1024x3 : S1024x256.Slices ![0, 15] S1024x3
  slices_S1024x256_o0_121_S1024x5 : S1024x256.Slices ![0, 121] S1024x5
  slices_S1024x2048_o0_192_S1024x32 : S1024x2048.Slices ![0, 192] S1024x32
  slices_S1024x2048_o0_1216_S1024x32 : S1024x2048.Slices ![0, 1216] S1024x32
  slices_S1024x256_o0_18_S1024x3 : S1024x256.Slices ![0, 18] S1024x3
  slices_S1024x256_o0_126_S1024x5 : S1024x256.Slices ![0, 126] S1024x5
  slices_S1024x2048_o0_224_S1024x32 : S1024x2048.Slices ![0, 224] S1024x32
  slices_S1024x2048_o0_1248_S1024x32 : S1024x2048.Slices ![0, 1248] S1024x32
  slices_S1024x256_o0_21_S1024x3 : S1024x256.Slices ![0, 21] S1024x3
  slices_S1024x256_o0_131_S1024x5 : S1024x256.Slices ![0, 131] S1024x5
  slices_S1024x2048_o0_256_S1024x32 : S1024x2048.Slices ![0, 256] S1024x32
  slices_S1024x2048_o0_1280_S1024x32 : S1024x2048.Slices ![0, 1280] S1024x32
  slices_S1024x256_o0_24_S1024x3 : S1024x256.Slices ![0, 24] S1024x3
  slices_S1024x256_o0_136_S1024x5 : S1024x256.Slices ![0, 136] S1024x5
  slices_S1024x2048_o0_288_S1024x32 : S1024x2048.Slices ![0, 288] S1024x32
  slices_S1024x2048_o0_1312_S1024x32 : S1024x2048.Slices ![0, 1312] S1024x32
  slices_S1024x256_o0_27_S1024x3 : S1024x256.Slices ![0, 27] S1024x3
  slices_S1024x256_o0_141_S1024x5 : S1024x256.Slices ![0, 141] S1024x5
  slices_S1024x2048_o0_320_S1024x32 : S1024x2048.Slices ![0, 320] S1024x32
  slices_S1024x2048_o0_1344_S1024x32 : S1024x2048.Slices ![0, 1344] S1024x32
  slices_S1024x256_o0_30_S1024x3 : S1024x256.Slices ![0, 30] S1024x3
  slices_S1024x256_o0_146_S1024x5 : S1024x256.Slices ![0, 146] S1024x5
  slices_S1024x2048_o0_352_S1024x32 : S1024x2048.Slices ![0, 352] S1024x32
  slices_S1024x2048_o0_1376_S1024x32 : S1024x2048.Slices ![0, 1376] S1024x32
  slices_S1024x256_o0_33_S1024x3 : S1024x256.Slices ![0, 33] S1024x3
  slices_S1024x256_o0_151_S1024x5 : S1024x256.Slices ![0, 151] S1024x5
  slices_S1024x2048_o0_384_S1024x32 : S1024x2048.Slices ![0, 384] S1024x32
  slices_S1024x2048_o0_1408_S1024x32 : S1024x2048.Slices ![0, 1408] S1024x32
  slices_S1024x256_o0_36_S1024x3 : S1024x256.Slices ![0, 36] S1024x3
  slices_S1024x256_o0_156_S1024x5 : S1024x256.Slices ![0, 156] S1024x5
  slices_S1024x2048_o0_416_S1024x32 : S1024x2048.Slices ![0, 416] S1024x32
  slices_S1024x2048_o0_1440_S1024x32 : S1024x2048.Slices ![0, 1440] S1024x32
  slices_S1024x256_o0_39_S1024x3 : S1024x256.Slices ![0, 39] S1024x3
  slices_S1024x256_o0_161_S1024x5 : S1024x256.Slices ![0, 161] S1024x5
  slices_S1024x2048_o0_448_S1024x32 : S1024x2048.Slices ![0, 448] S1024x32
  slices_S1024x2048_o0_1472_S1024x32 : S1024x2048.Slices ![0, 1472] S1024x32
  slices_S1024x256_o0_42_S1024x3 : S1024x256.Slices ![0, 42] S1024x3
  slices_S1024x256_o0_166_S1024x5 : S1024x256.Slices ![0, 166] S1024x5
  slices_S1024x2048_o0_480_S1024x32 : S1024x2048.Slices ![0, 480] S1024x32
  slices_S1024x2048_o0_1504_S1024x32 : S1024x2048.Slices ![0, 1504] S1024x32
  slices_S1024x256_o0_45_S1024x3 : S1024x256.Slices ![0, 45] S1024x3
  slices_S1024x256_o0_171_S1024x5 : S1024x256.Slices ![0, 171] S1024x5
  slices_S1024x2048_o0_512_S1024x32 : S1024x2048.Slices ![0, 512] S1024x32
  slices_S1024x2048_o0_1536_S1024x32 : S1024x2048.Slices ![0, 1536] S1024x32
  slices_S1024x256_o0_48_S1024x3 : S1024x256.Slices ![0, 48] S1024x3
  slices_S1024x256_o0_176_S1024x5 : S1024x256.Slices ![0, 176] S1024x5
  slices_S1024x2048_o0_544_S1024x32 : S1024x2048.Slices ![0, 544] S1024x32
  slices_S1024x2048_o0_1568_S1024x32 : S1024x2048.Slices ![0, 1568] S1024x32
  slices_S1024x256_o0_51_S1024x3 : S1024x256.Slices ![0, 51] S1024x3
  slices_S1024x256_o0_181_S1024x5 : S1024x256.Slices ![0, 181] S1024x5
  slices_S1024x2048_o0_576_S1024x32 : S1024x2048.Slices ![0, 576] S1024x32
  slices_S1024x2048_o0_1600_S1024x32 : S1024x2048.Slices ![0, 1600] S1024x32
  slices_S1024x256_o0_54_S1024x3 : S1024x256.Slices ![0, 54] S1024x3
  slices_S1024x256_o0_186_S1024x5 : S1024x256.Slices ![0, 186] S1024x5
  slices_S1024x2048_o0_608_S1024x32 : S1024x2048.Slices ![0, 608] S1024x32
  slices_S1024x2048_o0_1632_S1024x32 : S1024x2048.Slices ![0, 1632] S1024x32
  slices_S1024x256_o0_57_S1024x3 : S1024x256.Slices ![0, 57] S1024x3
  slices_S1024x256_o0_191_S1024x5 : S1024x256.Slices ![0, 191] S1024x5
  slices_S1024x2048_o0_640_S1024x32 : S1024x2048.Slices ![0, 640] S1024x32
  slices_S1024x2048_o0_1664_S1024x32 : S1024x2048.Slices ![0, 1664] S1024x32
  slices_S1024x256_o0_60_S1024x3 : S1024x256.Slices ![0, 60] S1024x3
  slices_S1024x256_o0_196_S1024x5 : S1024x256.Slices ![0, 196] S1024x5
  slices_S1024x2048_o0_672_S1024x32 : S1024x2048.Slices ![0, 672] S1024x32
  slices_S1024x2048_o0_1696_S1024x32 : S1024x2048.Slices ![0, 1696] S1024x32
  slices_S1024x256_o0_63_S1024x3 : S1024x256.Slices ![0, 63] S1024x3
  slices_S1024x256_o0_201_S1024x5 : S1024x256.Slices ![0, 201] S1024x5
  slices_S1024x2048_o0_704_S1024x32 : S1024x2048.Slices ![0, 704] S1024x32
  slices_S1024x2048_o0_1728_S1024x32 : S1024x2048.Slices ![0, 1728] S1024x32
  slices_S1024x256_o0_66_S1024x3 : S1024x256.Slices ![0, 66] S1024x3
  slices_S1024x256_o0_206_S1024x5 : S1024x256.Slices ![0, 206] S1024x5
  slices_S1024x2048_o0_736_S1024x32 : S1024x2048.Slices ![0, 736] S1024x32
  slices_S1024x2048_o0_1760_S1024x32 : S1024x2048.Slices ![0, 1760] S1024x32
  slices_S1024x256_o0_69_S1024x3 : S1024x256.Slices ![0, 69] S1024x3
  slices_S1024x256_o0_211_S1024x5 : S1024x256.Slices ![0, 211] S1024x5
  slices_S1024x2048_o0_768_S1024x32 : S1024x2048.Slices ![0, 768] S1024x32
  slices_S1024x2048_o0_1792_S1024x32 : S1024x2048.Slices ![0, 1792] S1024x32
  slices_S1024x256_o0_72_S1024x3 : S1024x256.Slices ![0, 72] S1024x3
  slices_S1024x256_o0_216_S1024x5 : S1024x256.Slices ![0, 216] S1024x5
  slices_S1024x2048_o0_800_S1024x32 : S1024x2048.Slices ![0, 800] S1024x32
  slices_S1024x2048_o0_1824_S1024x32 : S1024x2048.Slices ![0, 1824] S1024x32
  slices_S1024x256_o0_75_S1024x3 : S1024x256.Slices ![0, 75] S1024x3
  slices_S1024x256_o0_221_S1024x5 : S1024x256.Slices ![0, 221] S1024x5
  slices_S1024x2048_o0_832_S1024x32 : S1024x2048.Slices ![0, 832] S1024x32
  slices_S1024x2048_o0_1856_S1024x32 : S1024x2048.Slices ![0, 1856] S1024x32
  slices_S1024x256_o0_78_S1024x3 : S1024x256.Slices ![0, 78] S1024x3
  slices_S1024x256_o0_226_S1024x5 : S1024x256.Slices ![0, 226] S1024x5
  slices_S1024x2048_o0_864_S1024x32 : S1024x2048.Slices ![0, 864] S1024x32
  slices_S1024x2048_o0_1888_S1024x32 : S1024x2048.Slices ![0, 1888] S1024x32
  slices_S1024x256_o0_81_S1024x3 : S1024x256.Slices ![0, 81] S1024x3
  slices_S1024x256_o0_231_S1024x5 : S1024x256.Slices ![0, 231] S1024x5
  slices_S1024x2048_o0_896_S1024x32 : S1024x2048.Slices ![0, 896] S1024x32
  slices_S1024x2048_o0_1920_S1024x32 : S1024x2048.Slices ![0, 1920] S1024x32
  slices_S1024x256_o0_84_S1024x3 : S1024x256.Slices ![0, 84] S1024x3
  slices_S1024x256_o0_236_S1024x5 : S1024x256.Slices ![0, 236] S1024x5
  slices_S1024x2048_o0_928_S1024x32 : S1024x2048.Slices ![0, 928] S1024x32
  slices_S1024x2048_o0_1952_S1024x32 : S1024x2048.Slices ![0, 1952] S1024x32
  slices_S1024x256_o0_87_S1024x3 : S1024x256.Slices ![0, 87] S1024x3
  slices_S1024x256_o0_241_S1024x5 : S1024x256.Slices ![0, 241] S1024x5
  slices_S1024x2048_o0_960_S1024x32 : S1024x2048.Slices ![0, 960] S1024x32
  slices_S1024x2048_o0_1984_S1024x32 : S1024x2048.Slices ![0, 1984] S1024x32
  slices_S1024x256_o0_90_S1024x3 : S1024x256.Slices ![0, 90] S1024x3
  slices_S1024x256_o0_246_S1024x5 : S1024x256.Slices ![0, 246] S1024x5
  slices_S1024x2048_o0_992_S1024x32 : S1024x2048.Slices ![0, 992] S1024x32
  slices_S1024x2048_o0_2016_S1024x32 : S1024x2048.Slices ![0, 2016] S1024x32
  slices_S1024x256_o0_93_S1024x3 : S1024x256.Slices ![0, 93] S1024x3
  slices_S1024x256_o0_251_S1024x5 : S1024x256.Slices ![0, 251] S1024x5
  shapeCasts_S1024x32x3_S1024x96 : S1024x32x3.ShapeCasts S1024x96
  shapeCasts_S1024x32x5_S1024x160 : S1024x32x5.ShapeCasts S1024x160
  concatenates_S1024x128_S1024x96_S1024x160_S1024x384_d1 : Shape.Concatenates [S1024x128, S1024x96, S1024x160] S1024x384 1
  inb_S1024x384_S1024x384_0_0 : ∀ a, (![0, 0] : Fin 2 → Nat) a + S1024x384.size a ≤ S1024x384.size a
  h_S1024x384 : 0 < S1024x384.numel
  dot_S1024x64_S64x512_S1024x512_1_0_0_1_n_n_wf : DotDims.WF S1024x64 S64x512 S1024x512 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S256x2048.size a
  hwx0_8 : ∀ i : grid0.Coords, EltTy.bits .f32 = 32 ∨ (Rect.block (s := S256x2048) S256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x384.size a ≤ S65536x384.size a
  hwx0_9 : ∀ i : grid0.Coords, EltTy.bits .f32 = 32 ∨ (Rect.block (s := S65536x384) S1024x384.size (cc0_transform_9 i) (hinb0_9 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x64 : Shape := ⟨2, ![65536, 64]⟩
abbrev S64x512 : Shape := ⟨2, ![64, 512]⟩
abbrev S512 : Shape := ⟨1, ![512]⟩
abbrev S256x256 : Shape := ⟨2, ![256, 256]⟩
abbrev S256x128 : Shape := ⟨2, ![256, 128]⟩
abbrev S256x2048 : Shape := ⟨2, ![256, 2048]⟩
abbrev S65536x256 : Shape := ⟨2, ![65536, 256]⟩
abbrev S1x512 : Shape := ⟨2, ![1, 512]⟩
abbrev S65536x128 : Shape := ⟨2, ![65536, 128]⟩
abbrev S65536x96 : Shape := ⟨2, ![65536, 96]⟩
abbrev S65536x32x3 : Shape := ⟨3, ![65536, 32, 3]⟩
abbrev S65536x160 : Shape := ⟨2, ![65536, 160]⟩
abbrev S65536x32x5 : Shape := ⟨3, ![65536, 32, 5]⟩
abbrev S65536x2048 : Shape := ⟨2, ![65536, 2048]⟩
abbrev S65536x1024 : Shape := ⟨2, ![65536, 1024]⟩
abbrev S65536x32x32 : Shape := ⟨3, ![65536, 32, 32]⟩
abbrev S_ : Shape := ⟨0, ![]⟩
abbrev S65536x384 : Shape := ⟨2, ![65536, 384]⟩

abbrev nBuf : Space → Nat
  | .hbm => 50
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S64x512, .f32⟩
  | .hbm, ⟨3, _⟩ => ⟨S512, .f32⟩
  | .hbm, ⟨4, _⟩ => ⟨S256x256, .f32⟩
  | .hbm, ⟨5, _⟩ => ⟨S64x512, .f32⟩
  | .hbm, ⟨6, _⟩ => ⟨S512, .f32⟩
  | .hbm, ⟨7, _⟩ => ⟨S256x128, .f32⟩
  | .hbm, ⟨8, _⟩ => ⟨S256x2048, .f32⟩
  | .hbm, ⟨9, _⟩ => ⟨S65536x256, .f32⟩
  | .hbm, ⟨10, _⟩ => ⟨S65536x256, .f32⟩
  | .hbm, ⟨11, _⟩ => ⟨S65536x512, .f32⟩
  | .hbm, ⟨12, _⟩ => ⟨S1x512, .f32⟩
  | .hbm, ⟨13, _⟩ => ⟨S65536x512, .f32⟩
  | .hbm, ⟨14, _⟩ => ⟨S65536x512, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x512, .f32⟩
  | .hbm, ⟨21, _⟩ => ⟨S1x512, .f32⟩
  | .hbm, ⟨22, _⟩ => ⟨S65536x512, .f32⟩
  | .hbm, ⟨23, _⟩ => ⟨S65536x512, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x128, .f32⟩
  | .hbm, ⟨29, _⟩ => ⟨S65536x96, .f32⟩
  | .hbm, ⟨30, _⟩ => ⟨S65536x32x3, .f32⟩
  | .hbm, ⟨31, _⟩ => ⟨S65536x160, .f32⟩
  | .hbm, ⟨32, _⟩ => ⟨S65536x32x5, .f32⟩
  | .hbm, ⟨33, _⟩ => ⟨S65536x2048, .f32⟩
  | .hbm, ⟨34, _⟩ => ⟨S65536x1024, .f32⟩
  | .hbm, ⟨35, _⟩ => ⟨S65536x32x32, .f32⟩
  | .hbm, ⟨36, _⟩ => ⟨S65536x1024, .f32⟩
  | .hbm, ⟨37, _⟩ => ⟨S65536x32x32, .f32⟩
  | .hbm, ⟨38, _⟩ => ⟨S65536x32x3, .f32⟩
  | .hbm, ⟨39, _⟩ => ⟨S_, .f32⟩
  | .hbm, ⟨40, _⟩ => ⟨S65536x32x3, .f32⟩
  | .hbm, ⟨41, _⟩ => ⟨S65536x32x3, .f32⟩
  | .hbm, ⟨42, _⟩ => ⟨S65536x32x5, .f32⟩
  | .hbm, ⟨43, _⟩ => ⟨S_, .f32⟩
  | .hbm, ⟨44, _⟩ => ⟨S65536x32x5, .f32⟩
  | .hbm, ⟨45, _⟩ => ⟨S65536x32x5, .f32⟩
  | .hbm, ⟨46, _⟩ => ⟨S65536x96, .f32⟩
  | .hbm, ⟨47, _⟩ => ⟨S65536x160, .f32⟩
  | .hbm, ⟨48, _⟩ => ⟨S65536x256, .f32⟩
  | .hbm, ⟨49, _⟩ => ⟨S65536x384, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  slices_S65536x512_S65536x256_0_0 : S65536x512.Slices ![0, 0] S65536x256
  slices_S65536x512_S65536x256_0_256 : S65536x512.Slices ![0, 256] S65536x256
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x256_S65536x96_0_0 : S65536x256.Slices ![0, 0] S65536x96
  shapeCasts_S65536x96_S65536x32x3 : S65536x96.ShapeCasts S65536x32x3
  slices_S65536x256_S65536x160_0_96 : S65536x256.Slices ![0, 96] S65536x160
  shapeCasts_S65536x160_S65536x32x5 : S65536x160.ShapeCasts S65536x32x5
  slices_S65536x2048_S65536x1024_0_0 : S65536x2048.Slices ![0, 0] S65536x1024
  shapeCasts_S65536x1024_S65536x32x32 : S65536x1024.ShapeCasts S65536x32x32
  slices_S65536x2048_S65536x1024_0_1024 : S65536x2048.Slices ![0, 1024] S65536x1024
  bcast_S_S65536x32x3 : S_.BroadcastsInDim S65536x32x3 (![] : Fin 0 → Fin S65536x32x3.rank)
  bcast_S_S65536x32x5 : S_.BroadcastsInDim S65536x32x5 (![] : Fin 0 → Fin S65536x32x5.rank)
  shapeCasts_S65536x32x3_S65536x96 : S65536x32x3.ShapeCasts S65536x96
  shapeCasts_S65536x32x5_S65536x160 : S65536x32x5.ShapeCasts S65536x160
  concatenates_S65536x96_S65536x160_S65536x256_d1 : Shape.Concatenates [S65536x96, S65536x160] S65536x256 1
  concatenates_S65536x128_S65536x256_S65536x384_d1 : Shape.Concatenates [S65536x128, S65536x256] S65536x384 1
  dot_S65536x64_S64x512_S65536x512_1_0_0_1_n_n_wf : DotDims.WF S65536x64 S64x512 S65536x512 [1] [0] [0] [1] [] []
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []
  dot_S65536x256_S256x2048_S65536x2048_1_0_0_1_n_n_wf : DotDims.WF S65536x256 S256x2048 S65536x2048 [1] [0] [0] [1] [] []
  dot_S65536x32x32_S65536x32x3_S65536x32x3_1_1_2_2_0_0_wf : DotDims.WF S65536x32x32 S65536x32x3 S65536x32x3 [1] [1] [2] [2] [0] [0]
  dot_S65536x32x32_S65536x32x5_S65536x32x5_1_1_2_2_0_0_wf : DotDims.WF S65536x32x32 S65536x32x5 S65536x32x5 [1] [1] [2] [2] [0] [0]

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x256_S256x2048_S65536x2048_1_0_0_1_n_n : DotDims S65536x256 S256x2048 S65536x2048 where
  lhsContracting := [1]
  rhsContracting := [0]
  lhsNonContracting := [0]
  rhsNonContracting := [1]
  lhsBatch := []
  rhsBatch := []
  wf := dot_S65536x256_S256x2048_S65536x2048_1_0_0_1_n_n_wf
def dot_S65536x32x32_S65536x32x3_S65536x32x3_1_1_2_2_0_0 : DotDims S65536x32x32 S65536x32x3 S65536x32x3 where
  lhsContracting := [1]
  rhsContracting := [1]
  lhsNonContracting := [2]
  rhsNonContracting := [2]
  lhsBatch := [0]
  rhsBatch := [0]
  wf := dot_S65536x32x32_S65536x32x3_S65536x32x3_1_1_2_2_0_0_wf
def dot_S65536x32x32_S65536x32x5_S65536x32x5_1_1_2_2_0_0 : DotDims S65536x32x32 S65536x32x5 S65536x32x5 where
  lhsContracting := [1]
  rhsContracting := [1]
  lhsNonContracting := [2]
  rhsNonContracting := [2]
  lhsBatch := [0]
  rhsBatch := [0]
  wf := dot_S65536x32x32_S65536x32x5_S65536x32x5_1_1_2_2_0_0_wf

class Facts : Prop extends Facts₀ where

variable [Facts]
-- ==== Proof.Spec.lean ====
/-
  The row function both programs compute.

  Every output row depends on one row of the feature array (512 entries: 256 scalars, then 32 vectors of
  3 components, then 32 vectors of 5 components), one row of the conditioning array (64 entries) and the seven
  weight arrays whole.  With g the conditioning row and f the feature row:

    gb W b n   = (sum over k < 64 of g k * W k n) + b n                      (a conditioning projection, 512 wide)
    s1 p       = f p * gb W1 b1 p + gb W1 b1 (256 + p)                        (scale and shift of the scalars)
    s2 q       = sum over p < 256 of s1 p * A p q                             (the scalar linear layer)
    s3 q       = s2 q * gb W2 b2 q + gb W2 b2 (256 + q)                       (second scale and shift)
    inv j      = sum over q < 256 of s3 q * P q j                             (the invariant readout, 128 wide)
    hw n       = sum over q < 256 of s3 q * H q n                             (the per-row mixing weights, 2048 wide)
    y1 o d     = (sum over i < 32 of hw (32 i + o) * f (256 + 3 i + d)) * c   (mixing the 3-component vectors)
    y2 o d     = (sum over i < 32 of hw (1024 + 32 i + o) * f (352 + 5 i + d)) * c

  and the output row is inv (128 entries), then y1 laid out o-major (96 entries), then y2 laid out o-major
  (160 entries).  Everything is over the extended reals; no law beyond those of a commutative additive monoid with a
  multiplication is used to identify the two programs, so nothing here speaks of finiteness.
-/
import Idealize.ShloMosaic.PureOps.Ideal
import Idealize.ShloMosaic.Lib.ValueIdx

noncomputable section

namespace Spec

open Idealize.ShloMosaic

/-- The fan-in normalisation both programs multiply the mixed vectors by, as the binary value both spell. -/
def c : EReal := Ideal.ofBits .f32 0x3E3504F3#32

/-- Column p of the first half of a 512-wide row. -/
def lo (p : Fin 256) : Fin 512 := ⟨p.val, by omega⟩
/-- Column p of the second half of a 512-wide row. -/
def hi (p : Fin 256) : Fin 512 := ⟨256 + p.val, by omega⟩
/-- Where the weight taking input vector i to output vector o sits in the first half of the 2048 mixing weights. -/
def wIdx1 (i o : Fin 32) : Fin 2048 := ⟨32 * i.val + o.val, by omega⟩
/-- The same in the second half. -/
def wIdx2 (i o : Fin 32) : Fin 2048 := ⟨1024 + 32 * i.val + o.val, by omega⟩
/-- Component d of the i-th 3-component vector in a feature row. -/
def eIdx1 (i : Fin 32) (d : Fin 3) : Fin 512 := ⟨256 + 3 * i.val + d.val, by omega⟩
/-- Component d of the i-th 5-component vector in a feature row. -/
def eIdx2 (i : Fin 32) (d : Fin 5) : Fin 512 := ⟨352 + 5 * i.val + d.val, by omega⟩

variable (f : Fin 512 → EReal) (g : Fin 64 → EReal)
  (W1 : Fin 64 → Fin 512 → EReal) (b1 : Fin 512 → EReal) (A : Fin 256 → Fin 256 → EReal)
  (W2 : Fin 64 → Fin 512 → EReal) (b2 : Fin 512 → EReal)
  (P : Fin 256 → Fin 128 → EReal) (H : Fin 256 → Fin 2048 → EReal)

/-- A conditioning projection: the conditioning row times a weight matrix, plus a bias. -/
def gb (W : Fin 64 → Fin 512 → EReal) (b : Fin 512 → EReal) (n : Fin 512) : EReal := (∑ k : Fin 64, g k * W k n) + b n

/-- The scalars after the first scale and shift. -/
def s1 (p : Fin 256) : EReal := f (lo p) * gb g W1 b1 (lo p) + gb g W1 b1 (hi p)

/-- The scalars after the linear layer. -/
def s2 (q : Fin 256) : EReal := ∑ p : Fin 256, s1 f g W1 b1 p * A p q

/-- The scalars after the second scale and shift. -/
def s3 (q : Fin 256) : EReal := s2 f g W1 b1 A q * gb g W2 b2 (lo q) + gb g W2 b2 (hi q)

/-- The invariant readout. -/
def inv (j : Fin 128) : EReal := ∑ q : Fin 256, s3 f g W1 b1 A W2 b2 q * P q j

/-- The row's own mixing weights. -/
def hw (n : Fin 2048) : EReal := ∑ q : Fin 256, s3 f g W1 b1 A W2 b2 q * H q n

/-- Output vector o, component d, of the mixed 3-component vectors. -/
def y1 (o : Fin 32) (d : Fin 3) : EReal := (∑ i : Fin 32, hw f g W1 b1 A W2 b2 H (wIdx1 i o) * f (eIdx1 i d)) * c

/-- Output vector o, component d, of the mixed 5-component vectors. -/
def y2 (o : Fin 32) (d : Fin 5) : EReal := (∑ i : Fin 32, hw f g W1 b1 A W2 b2 H (wIdx2 i o) * f (eIdx2 i d)) * c

/-- The output row: the readout, then the 3-component vectors, then the 5-component vectors. -/
def out (j : Fin 384) : EReal :=
  if h : j.val < 128 then inv f g W1 b1 A W2 b2 P ⟨j.val, h⟩
  else if h2 : j.val < 224 then
    y1 f g W1 b1 A W2 b2 H ⟨(j.val - 128) / 3, by omega⟩ ⟨(j.val - 128) % 3, by omega⟩
  else
    y2 f g W1 b1 A W2 b2 H ⟨(j.val - 224) / 5, by have := j.isLt; omega⟩ ⟨(j.val - 224) % 5, by omega⟩

theorem out_inv (j : Fin 384) (h : j.val < 128) : out f g W1 b1 A W2 b2 P H j = inv f g W1 b1 A W2 b2 P ⟨j.val, h⟩ := by
  unfold out; rw [dif_pos h]

theorem out_y1 (j : Fin 384) (o : Fin 32) (d : Fin 3) (hj : j.val = 128 + 3 * o.val + d.val) :
    out f g W1 b1 A W2 b2 P H j = y1 f g W1 b1 A W2 b2 H o d := by
  unfold out
  have ho := o.isLt; have hd := d.isLt
  rw [dif_neg (by omega), dif_pos (by omega)]
  congr 1
  · exact Fin.ext (by show (j.val - 128) / 3 = o.val; omega)
  · exact Fin.ext (by show (j.val - 128) % 3 = d.val; omega)

theorem out_y2 (j : Fin 384) (o : Fin 32) (d : Fin 5) (hj : j.val = 224 + 5 * o.val + d.val) :
    out f g W1 b1 A W2 b2 P H j = y2 f g W1 b1 A W2 b2 H o d := by
  unfold out
  have ho := o.isLt; have hd := d.isLt
  rw [dif_neg (by omega), dif_neg (by omega)]
  congr 1
  · exact Fin.ext (by show (j.val - 224) / 5 = o.val; omega)
  · exact Fin.ext (by show (j.val - 224) % 5 = d.val; omega)

end Spec

end
-- ==== Proof.Tail.lean ====
/-
  The part of the kernel body after its five matrix products, as one function of four values: the block's 256
  equivariant columns (v3), the scalars after the second scale and shift (v30), the invariant readout (v34) and
  the mixing-weight matrix in its narrow format (v36).  The body forms the mixing weights W = v30 · v36 (2048
  per row), accumulates over the 32 input vectors i the outer products of the weight slice W[:, 32 i .. 32 i + 31]
  (and W[:, 1024 + 32 i ..]) with the vector slice v3[:, 3 i .. 3 i + 2] (and v3[:, 96 + 5 i .. 96 + 5 i + 4]),
  scales both accumulators, flattens them and joins them to the readout.  The accumulation is spread over many
  named pieces of the body; here they are threaded back together, in the order the body runs them.
-/
import proofs.«173086_j69234872812251_1_alg».proof.Proof.Gen.KernelIdeal.Skeleton
import proofs.«173086_j69234872812251_1_alg».proof.Proof.Spec

noncomputable section

namespace Cert.KernelIdeal.Tail

open Cert.KernelIdeal Cert.KernelIdeal.Gen Idealize.ShloMosaic

/-- Component d of the i-th 3-component vector among the 256 equivariant columns. -/
def c3 (i : Fin 32) (d : Fin 3) : Fin 256 := ⟨3 * i.val + d.val, by omega⟩
/-- Component d of the i-th 5-component vector among the 256 equivariant columns. -/
def c5 (i : Fin 32) (d : Fin 5) : Fin 256 := ⟨96 + 5 * i.val + d.val, by omega⟩

variable (v3 v30 : FVec Ideal S1024x256 .f32) (v34 : FVec Ideal S1024x128 .f32) (v36 : FVec Ideal S256x2048 .bf16)

/-- The block's mixing weights: the scalars times the mixing-weight matrix. -/
def W : FVec Ideal S1024x2048 .f32 := k0_pay5 v30 v36

/-- The 3-component accumulator after input vectors 0 to 28. -/
def acc3 : FVec Ideal S1024x32x3 .f32 :=
  k0_pay37 v3 (W v30 v36)
    (k0_pay34 v3 (W v30 v36)
      (k0_pay30 v3 (W v30 v36)
        (k0_pay24 v3 (W v30 v36)
          (k0_pay19 v3 (W v30 v36)
            (k0_pay16 v3 (W v30 v36)
              (k0_pay12 v3 (W v30 v36) (k0_pay6 v3 v30 v36) (k0_pay9 v3) (k0_pay11 v30 v36))
              (k0_pay14 (W v30 v36))))
          (k0_pay23 v3 (W v30 v36)))
        (k0_pay27 v3) (k0_pay29 (W v30 v36)))
      (k0_pay32 (W v30 v36)))

/-- The 5-component accumulator after input vectors 0 to 28. -/
def acc5 : FVec Ideal S1024x32x5 .f32 :=
  k0_pay38 v3 (W v30 v36)
    (k0_pay33 v3 (W v30 v36)
      (k0_pay31 v3 (W v30 v36)
        (k0_pay25 v3 (W v30 v36)
          (k0_pay20 v3 (W v30 v36)
            (k0_pay15 v3 (W v30 v36)
              (k0_pay13 v3 (W v30 v36) (k0_pay7 v3 v30 v36) (k0_pay8 v30 v36) (k0_pay10 v3)))
            (k0_pay17 v3) (k0_pay18 (W v30 v36)))
          (k0_pay21 (W v30 v36)) (k0_pay22 v3))
        (k0_pay26 (W v30 v36)) (k0_pay28 v3)))
    (k0_pay35 v3) (k0_pay36 (W v30 v36))

/-- What the body stores: the last three accumulation steps, the scaling, the flattening and the join. -/
def tail : FVec Ideal S1024x384 .f32 :=
  k0_pay42 v3 v34 (W v30 v36) (acc3 v3 v30 v36) (acc5 v3 v30 v36) (k0_pay39 (W v30 v36)) (k0_pay40 v3) (k0_pay41 v3 (W v30 v36))

end Cert.KernelIdeal.Tail

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KerRow.lean ====
/-
  The kernel body's five matrix products and two scale-and-shift steps, read at one entry of the block.

  A block holds 1024 rows.  Row r of the body's values depends only on row r of the feature block and of the
  conditioning block and on the weight blocks whole, and it is the row function of Spec.lean of those rows: the
  narrow-format conversions before each product are the identity on the extended reals, a product into the zero
  accumulator is the plain sum over the contracted index, the bias row is broadcast down the block, and a column
  slice reads the source column shifted by the slice's offset.
-/
import proofs.«173086_j69234872812251_1_alg».proof.Proof.Tail
import proofs.«173086_j69234872812251_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerRow

open Cert.KernelIdeal Cert.KernelIdeal.Gen Idealize.ShloMosaic Idealize.ShloMosaic.ValueIdx

/-- A product of an [R, K] by a [K, C] array into the zero accumulator, at entry (p, q): the sum over k of
    l (p, k) * r (k, q). -/
theorem mm_apply {R K C : Nat} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    FloatOps.matmul d none l r (constant (F := Ideal) ⟨2, ![R, C]⟩ .f32 0x00000000#32) (ix2 p q)
      = ∑ k : Fin K, l (ix2 p k) * r (ix2 k q) :=
  (Ideal.matmul_constant_zero_apply d none l r (ix2 p q)).trans
    (PlainDot.sum_eq (M := EReal) d hlb hln hlc hrb hrn hrc l r p q)

variable (x0 : Vec Ideal S1024x512 .f32) (x1 : Vec Ideal S1024x64 .f32) (x2 : Vec Ideal S64x512 .f32)
  (x3 : Vec Ideal S1x512 .f32) (x4 : Vec Ideal S256x256 .f32) (x5 : Vec Ideal S64x512 .f32)
  (x6 : Vec Ideal S1x512 .f32) (x7 : Vec Ideal S256x128 .f32) (x8 : Vec Ideal S256x2048 .f32)

/-- A conditioning projection of the block at (r, n): the conditioning row r times the weight matrix, plus the bias
    row's entry n. -/
theorem gb_apply (w : Vec Ideal S64x512 .f32) (bias : Vec Ideal S1x512 .f32) (r : Fin 1024) (n : Fin 512) :
    addf (matmul dot_S1024x64_S64x512_S1024x512_1_0_0_1_n_n none (truncf .bf16 x1 bitsLt_bf16_f32) (truncf .bf16 w bitsLt_bf16_f32)
        (constant (F := Ideal) S1024x512 .f32 0x00000000#32))
      (broadcastTo S1024x512 (shapeCast S1x512 bias shapeCasts_S1x512_S1x512) broadcasts_S1x512_S1024x512) (ix2 r n)
      = Spec.gb (fun k => x1 (ix2 r k)) (fun a n => w (ix2 a n)) (fun n => bias (ix2 (0 : Fin 1) n)) n := by
  rw [shapeCast_self]
  refine (addf_apply _ _ _).trans ?_
  rw [broadcastTo_1b_ab_apply]
  refine congrArg (· + bias (ix2 (0 : Fin 1) n)) ?_
  exact mm_apply _ rfl rfl rfl rfl rfl rfl _ _ r n

/-- The feature row r of the block. -/
abbrev fRow (r : Fin 1024) : Fin 512 → EReal := fun k => x0 (ix2 r k)
/-- The conditioning row r of the block. -/
abbrev gRow (r : Fin 1024) : Fin 64 → EReal := fun k => x1 (ix2 r k)

/-- The block's second half of the feature columns, at (r, p): feature column 256 + p of row r. -/
theorem pay1_apply (r : Fin 1024) (p : Fin 256) : k0_pay1 x0 (ix2 r p) = x0 (ix2 r (Spec.hi p)) := by
  unfold k0_pay1
  exact slice2_axis1_apply 256 x0 _ r p (Spec.hi p) rfl

/-- The scalars after the second scale and shift, at (r, q). -/
theorem pay2_apply (r : Fin 1024) (q : Fin 256) :
    k0_pay2 x0 x1 x2 x3 x4 x5 x6 (ix2 r q)
      = Spec.s3 (fRow x0 r) (gRow x1 r) (fun a n => x2 (ix2 a n)) (fun n => x3 (ix2 (0 : Fin 1) n)) (fun a n => x4 (ix2 a n))
          (fun a n => x5 (ix2 a n)) (fun n => x6 (ix2 (0 : Fin 1) n)) q := by
  unfold k0_pay2
  refine (addf_apply _ _ _).trans ?_
  unfold Spec.s3
  congr 1
  · refine (mulf_apply _ _ _).trans ?_
    congr 1
    · refine (mm_apply _ rfl rfl rfl rfl rfl rfl _ _ r q).trans ?_
      unfold Spec.s2
      refine Finset.sum_congr rfl fun p _ => ?_
      congr 1
      show addf (F := Ideal) _ _ (ix2 r p) = _
      refine (addf_apply _ _ _).trans ?_
      unfold Spec.s1
      congr 1
      · refine (mulf_apply _ _ _).trans ?_
        congr 1
        · exact slice2_axis1_apply 0 x0 _ r p (Spec.lo p) (by show p.val = 0 + p.val; omega)
        · exact (slice2_axis1_apply 0 _ _ r p (Spec.lo p) (by show p.val = 0 + p.val; omega)).trans (gb_apply x1 x2 x3 r (Spec.lo p))
      · exact (slice2_axis1_apply 256 _ _ r p (Spec.hi p) rfl).trans (gb_apply x1 x2 x3 r (Spec.hi p))
    · exact (slice2_axis1_apply 0 _ _ r q (Spec.lo q) (by show q.val = 0 + q.val; omega)).trans (gb_apply x1 x5 x6 r (Spec.lo q))
  · exact (slice2_axis1_apply 256 _ _ r q (Spec.hi q) rfl).trans (gb_apply x1 x5 x6 r (Spec.hi q))

/-- The invariant readout of the block at (r, j). -/
theorem pay3_apply (r : Fin 1024) (j : Fin 128) :
    k0_pay3 x0 x1 x2 x3 x4 x5 x6 x7 (ix2 r j)
      = Spec.inv (fRow x0 r) (gRow x1 r) (fun a n => x2 (ix2 a n)) (fun n => x3 (ix2 (0 : Fin 1) n)) (fun a n => x4 (ix2 a n))
          (fun a n => x5 (ix2 a n)) (fun n => x6 (ix2 (0 : Fin 1) n)) (fun a n => x7 (ix2 a n)) j := by
  unfold k0_pay3
  refine (mm_apply _ rfl rfl rfl rfl rfl rfl _ _ r j).trans ?_
  unfold Spec.inv
  refine Finset.sum_congr rfl fun q _ => ?_
  congr 1
  exact pay2_apply x0 x1 x2 x3 x4 x5 x6 r q

/-- The block's mixing weights at (r, n). -/
theorem W_apply (r : Fin 1024) (n : Fin 2048) :
    Tail.W (k0_pay2 x0 x1 x2 x3 x4 x5 x6) (k0_pay4 x8) (ix2 r n)
      = Spec.hw (fRow x0 r) (gRow x1 r) (fun a n => x2 (ix2 a n)) (fun n => x3 (ix2 (0 : Fin 1) n)) (fun a n => x4 (ix2 a n))
          (fun a n => x5 (ix2 a n)) (fun n => x6 (ix2 (0 : Fin 1) n)) (fun a n => x8 (ix2 a n)) n := by
  unfold Tail.W k0_pay5 k0_pay4
  refine (mm_apply _ rfl rfl rfl rfl rfl rfl _ _ r n).trans ?_
  unfold Spec.hw
  refine Finset.sum_congr rfl fun q _ => ?_
  congr 1
  exact pay2_apply x0 x1 x2 x3 x4 x5 x6 r q

end Cert.KernelIdeal.KerRow

end
-- ==== Proof.TailY1.lean ====
/-
  The body's tail read at the columns 0 … 223 of an output row.  Columns 0 … 127 of row r are the invariant readout.
  Column 128 + 3 o + d is the o-th mixed 3-component vector's component d: the 3-component accumulator starts at zero
  and adds, for i = 0 … 31 in order, the product of the weight W[r, 32 i + o] with the vector component v3[r, 3 i + d];
  the total is multiplied by the normalisation, laid out o-major in 96 columns and joined between the 128 readout
  columns and the 160 columns of the 5-component vectors.  Each step is read at one index (r, o, d), the 32 steps are
  chained, and the left-nested total is identified with the sum over the 32 input vectors.
-/
import proofs.«173086_j69234872812251_1_alg».proof.Proof.Tail
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Tail
open Cert.KernelIdeal Cert.KernelIdeal.Gen Idealize.ShloMosaic Idealize.ShloMosaic.ValueIdx

/-- One product term read at an index: the weight slice broadcast along the component axis times the vector slice
    broadcast along the output axis is, at (r, o, d), the weight at column ow + o times the vector at column ox + d. -/
theorem y1_prod_apply (w : FVec Ideal S1024x2048 .f32) (x : FVec Ideal S1024x256 .f32) (ow ox : Nat)
    (hw : S1024x2048.Slices ![0, ow] S1024x32) (hx : S1024x256.Slices ![0, ox] S1024x3)
    (h1 : S1024x32.ShapeCasts S1024x32x1) (h2 : S1024x3.ShapeCasts S1024x1x3)
    (h3 : S1024x32x1.Broadcasts S1024x32x3) (h4 : S1024x1x3.Broadcasts S1024x32x3)
    (r : Fin 1024) (o : Fin 32) (d : Fin 3) (kw : Fin 2048) (kx : Fin 256)
    (hkw : kw.val = ow + o.val) (hkx : kx.val = ox + d.val) :
    mulf (broadcastTo S1024x32x3 (shapeCast S1024x32x1 (extractStridedSlice S1024x32 ![0, ow] w hw) h1) h3)
      (broadcastTo S1024x32x3 (shapeCast S1024x1x3 (extractStridedSlice S1024x3 ![0, ox] x hx) h2) h4) (ix3 r o d)
      = w (ix2 r kw) * x (ix2 r kx) := by
  refine (mulf_apply _ _ _).trans ?_
  refine congrArg₂ (· * ·) ?_ ?_
  · refine (broadcastTo_apply _ h3 (ix3 r o d) (ix3 r o (0 : Fin 1)) (fun a => match a with
      | ⟨0, _⟩ => rfl | ⟨1, _⟩ => rfl | ⟨2, _⟩ => rfl)).trans ?_
    refine (shapeCast_apply _ h1 (ix3 r o (0 : Fin 1)) (ix2 r o) (by
      rw [Shape.rowMajor_val_two, Shape.rowMajor_val_three]
      show r.val * 32 + o.val = (r.val * 32 + o.val) * 1 + 0
      omega)).trans ?_
    exact slice2_axis1_apply ow w hw r o kw hkw
  · refine (broadcastTo_apply _ h4 (ix3 r o d) (ix3 r (0 : Fin 1) d) (fun a => match a with
      | ⟨0, _⟩ => rfl | ⟨1, _⟩ => rfl | ⟨2, _⟩ => rfl)).trans ?_
    refine (shapeCast_apply _ h2 (ix3 r (0 : Fin 1) d) (ix2 r d) (by
      rw [Shape.rowMajor_val_two, Shape.rowMajor_val_three]
      show r.val * 3 + d.val = (r.val * 1 + 0) * 3 + d.val
      omega)).trans ?_
    exact slice2_axis1_apply ox x hx r d kx hkx

/-- A sum over 32 indices written out in order from zero. -/
theorem y1_sum32 (f : Fin 32 → EReal) :
    ∑ i : Fin 32, f i = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero]
  rfl

/-- The i-th term of the accumulation at (r, o, d): weight column 32 i + o times vector column 3 i + d. -/
@[reducible] def y1T (w : FVec Ideal S1024x2048 .f32) (x : FVec Ideal S1024x256 .f32) (r : Fin 1024) (o : Fin 32) (d : Fin 3)
    (i : Fin 32) : EReal :=
  w (ix2 r (Spec.wIdx1 i o)) * x (ix2 r (c3 i d))

/-- The accumulator after input vectors 0 to 2, read at (r, o, d): the zero splat plus the first three terms. -/
theorem y1_pay6_apply (v3 v30 : FVec Ideal S1024x256 .f32) (v36 : FVec Ideal S256x2048 .bf16)
    (r : Fin 1024) (o : Fin 32) (d : Fin 3) :
    k0_pay6 v3 v30 v36 (ix3 r o d)
      = 0 + y1T (W v30 v36) v3 r o d 0 + y1T (W v30 v36) v3 r o d 1 + y1T (W v30 v36) v3 r o d 2 := by
  unfold k0_pay6
  refine (addf_apply _ _ _).trans ?_
  refine congrArg₂ (· + ·) ?_ (y1_prod_apply _ _ 64 6 _ _ _ _ _ _ r o d _ _ rfl rfl)
  refine (addf_apply _ _ _).trans ?_
  refine congrArg₂ (· + ·) ?_ (y1_prod_apply _ _ 32 3 _ _ _ _ _ _ r o d _ _ rfl rfl)
  refine (addf_apply _ _ _).trans ?_
  refine congrArg₂ (· + ·) ?_ (y1_prod_apply _ _ 0 0 _ _ _ _ _ _ r o d _ _ rfl rfl)
  exact Ideal.ofBits_zero_f32

/-- Input vectors 3 to 6 added to an accumulator, read at (r, o, d). -/
theorem y1_pay12_apply (v3 v30 : FVec Ideal S1024x256 .f32) (v36 : FVec Ideal S256x2048 .bf16) (acc : FVec Ideal S1024x32x3 .f32)
    (r : Fin 1024) (o : Fin 32) (d : Fin 3) :
    k0_pay12 v3 (W v30 v36) acc (k0_pay9 v3) (k0_pay11 v30 v36) (ix3 r o d)
      = acc (ix3 r o d) + y1T (W v30 v36) v3 r o d 3 + y1T (W v30 v36) v3 r o d 4 + y1T (W v30 v36) v3 r o d 5 + y1T (W v30 v36) v3 r o d 6 := by
  unfold k0_pay12 k0_pay9 k0_pay11
  refine (addf_apply _ _ _).trans ?_
  refine congrArg₂ (· + ·) ?_ (y1_prod_apply _ _ 192 18 _ _ _ _ _ _ r o d _ _ rfl rfl)
  refine (addf_apply _ _ _).trans ?_
  refine congrArg₂ (· + ·) ?_ (y1_prod_apply _ _ 160 15 _ _ _ _ _ _ r o d _ _ rfl rfl)
  refine (addf_apply _ _ _).trans ?_
  refine congrArg₂ (· + ·) ?_ (y1_prod_apply _ _ 128 12 _ _ _ _ _ _ r o d _ _ rfl rfl)
  refine (addf_apply _ _ _).trans ?_
  refine congrArg₂ (· + ·) ?_ (y1_prod_apply _ _ 96 9 _ _ _ _ _ _ r o d _ _ rfl rfl)
  rfl

/-- Input vectors 7 to 10 added to an accumulator, read at (r, o, d). -/
theorem y1_pay16_apply (v3 v30 : FVec Ideal S1024x256 .f32) (v36 : FVec Ideal S256x2048 .bf16) (acc : FVec Ideal S1024x32x3 .f32)
    (r : Fin 1024) (o : Fin 32) (d : Fin 3) :
    k0_pay16 v3 (W v30 v36) acc (k0_pay14 (W v30 v36)) (ix3 r o d)
      = acc (ix3 r o d) + y1T (W v30 v36) v3 r o d 7 + y1T (W v30 v36) v3 r o d 8 + y1T (W v30 v36) v3 r o d 9 + y1T (W v30 v36) v3 r o d 10 := by
  unfold k0_pay16 k0_pay14
  refine (addf_apply _ _ _).trans ?_
  refine congrArg₂ (· + ·) ?_ (y1_prod_apply _ _ 320 30 _ _ _ _ _ _ r o d _ _ rfl rfl)
  refine (addf_apply _ _ _).trans ?_
  refine congrArg₂ (· + ·) ?_ (y1_prod_apply _ _ 288 27 _ _ _ _ _ _ r o d _ _ rfl rfl)
  refine (addf_apply _ _ _).trans ?_
  refine congrArg₂ (· + ·) ?_ (y1_prod_apply _ _ 256 24 _ _ _ _ _ _ r o d _ _ rfl rfl)
  refine (addf_apply _ _ _).trans ?_
  refine congrArg₂ (· + ·) ?_ (y1_prod_apply _ _ 224 21 _ _ _ _ _ _ r o d _ _ rfl rfl)
  rfl

/-- Input vectors 11 to 13 added to an accumulator, read at (r, o, d). -/
theorem y1_pay19_apply (v3 v30 : FVec Ideal S1024x256 .f32) (v36 : FVec Ideal S256x2048 .bf16) (acc : FVec Ideal S1024x32x3 .f32)
    (r : Fin 1024) (o : Fin 32) (d : Fin 3) :
    k0_pay19 v3 (W v30 v36) acc (ix3 r o d)
      = acc (ix3 r o d) + y1T (W v30 v36) v3 r o d 11 + y1T (W v30 v36) v3 r o d 12 + y1T (W v30 v36) v3 r o d 13 := by
  unfold k0_pay19
  refine (addf_apply _ _ _).trans ?_
  refine congrArg₂ (· + ·) ?_ (y1_prod_apply _ _ 416 39 _ _ _ _ _ _ r o d _ _ rfl rfl)
  refine (addf_apply _ _ _).trans ?_
  refine congrArg₂ (· + ·) ?_ (y1_prod_apply _ _ 384 36 _ _ _ _ _ _ r o d _ _ rfl rfl)
  refine (addf_apply _ _ _).trans ?_
  refine congrArg₂ (· + ·) ?_ (y1_prod_apply _ _ 352 33 _ _ _ _ _ _ r o d _ _ rfl rfl)
  rfl

/-- Input vectors 14 to 17 added to an accumulator, read at (r, o, d). -/
theorem y1_pay24_apply (v3 v30 : FVec Ideal S1024x256 .f32) (v36 : FVec Ideal S256x2048 .bf16) (acc : FVec Ideal S1024x32x3 .f32)
    (r : Fin 1024) (o : Fin 32) (d : Fin 3) :
    k0_pay24 v3 (W v30 v36) acc (k0_pay23 v3 (W v30 v36)) (ix3 r o d)
      = acc (ix3 r o d) + y1T (W v30 v36) v3 r o d 14 + y1T (W v30 v36) v3 r o d 15 + y1T (W v30 v36) v3 r o d 16 + y1T (W v30 v36) v3 r o d 17 := by
  unfold k0_pay24 k0_pay23
  refine (addf_apply _ _ _).trans ?_
  refine congrArg₂ (· + ·) ?_ (y1_prod_apply _ _ 544 51 _ _ _ _ _ _ r o d _ _ rfl rfl)
  refine (addf_apply _ _ _).trans ?_
  refine congrArg₂ (· + ·) ?_ (y1_prod_apply _ _ 512 48 _ _ _ _ _ _ r o d _ _ rfl rfl)
  refine (addf_apply _ _ _).trans ?_
  refine congrArg₂ (· + ·) ?_ (y1_prod_apply _ _ 480 45 _ _ _ _ _ _ r o d _ _ rfl rfl)
  refine (addf_apply _ _ _).trans ?_
  refine congrArg₂ (· + ·) ?_ (y1_prod_apply _ _ 448 42 _ _ _ _ _ _ r o d _ _ rfl rfl)
  rfl

/-- Input vectors 18 to 21 added to an accumulator, read at (r, o, d). -/
theorem y1_pay30_apply (v3 v30 : FVec Ideal S1024x256 .f32) (v36 : FVec Ideal S256x2048 .bf16) (acc : FVec Ideal S1024x32x3 .f32)
    (r : Fin 1024) (o : Fin 32) (d : Fin 3) :
    k0_pay30 v3 (W v30 v36) acc (k0_pay27 v3) (k0_pay29 (W v30 v36)) (ix3 r o d)
      = acc (ix3 r o d) + y1T (W v30 v36) v3 r o d 18 + y1T (W v30 v36) v3 r o d 19 + y1T (W v30 v36) v3 r o d 20 + y1T (W v30 v36) v3 r o d 21 := by
  unfold k0_pay30 k0_pay27 k0_pay29
  refine (addf_apply _ _ _).trans ?_
  refine congrArg₂ (· + ·) ?_ (y1_prod_apply _ _ 672 63 _ _ _ _ _ _ r o d _ _ rfl rfl)
  refine (addf_apply _ _ _).trans ?_
  refine congrArg₂ (· + ·) ?_ (y1_prod_apply _ _ 640 60 _ _ _ _ _ _ r o d _ _ rfl rfl)
  refine (addf_apply _ _ _).trans ?_
  refine congrArg₂ (· + ·) ?_ (y1_prod_apply _ _ 608 57 _ _ _ _ _ _ r o d _ _ rfl rfl)
  refine (addf_apply _ _ _).trans ?_
  refine congrArg₂ (· + ·) ?_ (y1_prod_apply _ _ 576 54 _ _ _ _ _ _ r o d _ _ rfl rfl)
  rfl

/-- Input vectors 22 to 25 added to an accumulator, read at (r, o, d). -/
theorem y1_pay34_apply (v3 v30 : FVec Ideal S1024x256 .f32) (v36 : FVec Ideal S256x2048 .bf16) (acc : FVec Ideal S1024x32x3 .f32)
    (r : Fin 1024) (o : Fin 32) (d : Fin 3) :
    k0_pay34 v3 (W v30 v36) acc (k0_pay32 (W v30 v36)) (ix3 r o d)
      = acc (ix3 r o d) + y1T (W v30 v36) v3 r o d 22 + y1T (W v30 v36) v3 r o d 23 + y1T (W v30 v36) v3 r o d 24 + y1T (W v30 v36) v3 r o d 25 := by
  unfold k0_pay34 k0_pay32
  refine (addf_apply _ _ _).trans ?_
  refine congrArg₂ (· + ·) ?_ (y1_prod_apply _ _ 800 75 _ _ _ _ _ _ r o d _ _ rfl rfl)
  refine (addf_apply _ _ _).trans ?_
  refine congrArg₂ (· + ·) ?_ (y1_prod_apply _ _ 768 72 _ _ _ _ _ _ r o d _ _ rfl rfl)
  refine (addf_apply _ _ _).trans ?_
  refine congrArg₂ (· + ·) ?_ (y1_prod_apply _ _ 736 69 _ _ _ _ _ _ r o d _ _ rfl rfl)
  refine (addf_apply _ _ _).trans ?_
  refine congrArg₂ (· + ·) ?_ (y1_prod_apply _ _ 704 66 _ _ _ _ _ _ r o d _ _ rfl rfl)
  rfl

/-- Input vectors 26 to 28 added to an accumulator, read at (r, o, d). -/
theorem y1_pay37_apply (v3 v30 : FVec Ideal S1024x256 .f32) (v36 : FVec Ideal S256x2048 .bf16) (acc : FVec Ideal S1024x32x3 .f32)
    (r : Fin 1024) (o : Fin 32) (d : Fin 3) :
    k0_pay37 v3 (W v30 v36) acc (ix3 r o d)
      = acc (ix3 r o d) + y1T (W v30 v36) v3 r o d 26 + y1T (W v30 v36) v3 r o d 27 + y1T (W v30 v36) v3 r o d 28 := by
  unfold k0_pay37
  refine (addf_apply _ _ _).trans ?_
  refine congrArg₂ (· + ·) ?_ (y1_prod_apply _ _ 896 84 _ _ _ _ _ _ r o d _ _ rfl rfl)
  refine (addf_apply _ _ _).trans ?_
  refine congrArg₂ (· + ·) ?_ (y1_prod_apply _ _ 864 81 _ _ _ _ _ _ r o d _ _ rfl rfl)
  refine (addf_apply _ _ _).trans ?_
  refine congrArg₂ (· + ·) ?_ (y1_prod_apply _ _ 832 78 _ _ _ _ _ _ r o d _ _ rfl rfl)
  rfl

/-- The 3-component accumulator after input vectors 0 to 28, read at (r, o, d): the first 29 terms in order. -/
theorem y1_acc3_apply (v3 v30 : FVec Ideal S1024x256 .f32) (v36 : FVec Ideal S256x2048 .bf16) (r : Fin 1024) (o : Fin 32) (d : Fin 3) :
    acc3 v3 v30 v36 (ix3 r o d)
      = 0 + y1T (W v30 v36) v3 r o d 0 + y1T (W v30 v36) v3 r o d 1 + y1T (W v30 v36) v3 r o d 2 + y1T (W v30 v36) v3 r o d 3 + y1T (W v30 v36) v3 r o d 4 + y1T (W v30 v36) v3 r o d 5 + y1T (W v30 v36) v3 r o d 6 + y1T (W v30 v36) v3 r o d 7 + y1T (W v30 v36) v3 r o d 8 + y1T (W v30 v36) v3 r o d 9 + y1T (W v30 v36) v3 r o d 10 + y1T (W v30 v36) v3 r o d 11 + y1T (W v30 v36) v3 r o d 12 + y1T (W v30 v36) v3 r o d 13 + y1T (W v30 v36) v3 r o d 14 + y1T (W v30 v36) v3 r o d 15 + y1T (W v30 v36) v3 r o d 16 + y1T (W v30 v36) v3 r o d 17 + y1T (W v30 v36) v3 r o d 18 + y1T (W v30 v36) v3 r o d 19 + y1T (W v30 v36) v3 r o d 20 + y1T (W v30 v36) v3 r o d 21 + y1T (W v30 v36) v3 r o d 22 + y1T (W v30 v36) v3 r o d 23 + y1T (W v30 v36) v3 r o d 24 + y1T (W v30 v36) v3 r o d 25 + y1T (W v30 v36) v3 r o d 26 + y1T (W v30 v36) v3 r o d 27 + y1T (W v30 v36) v3 r o d 28 := by
  unfold acc3
  rw [y1_pay37_apply, y1_pay34_apply, y1_pay30_apply, y1_pay24_apply, y1_pay19_apply, y1_pay16_apply, y1_pay12_apply, y1_pay6_apply]

/-- The stored row at a column 128 + 3 o + d: that column lies in the middle piece of the join, which is the flattening
    of the scaled 3-component accumulator, so it reads the accumulator after all 32 input vectors at (r, o, d), times
    the normalisation. -/
theorem y1_tail_mid (v3 v30 : FVec Ideal S1024x256 .f32) (v34 : FVec Ideal S1024x128 .f32) (v36 : FVec Ideal S256x2048 .bf16)
    (r : Fin 1024) (o : Fin 32) (d : Fin 3) (j : Fin 384) (hj : j.val = 128 + 3 * o.val + d.val) :
    tail v3 v30 v34 v36 (ix2 r j)
      = (acc3 v3 v30 v36 (ix3 r o d) + y1T (W v30 v36) v3 r o d 29 + y1T (W v30 v36) v3 r o d 30 + y1T (W v30 v36) v3 r o d 31) * Spec.c := by
  have ho := o.isLt
  have hd := d.isLt
  have hlt : 3 * o.val + d.val < 96 := by omega
  unfold tail k0_pay42 k0_pay41
  refine (concatenate_apply_piece _ _ _ (ix2 r j) 1 (by show (1 : Nat) < 3; decide) S1024x96 _ rfl rfl 128 rfl
    (ix2 r (⟨3 * o.val + d.val, hlt⟩ : Fin 96))
    (fun b => match b with | ⟨0, _⟩ => fun _ => rfl | ⟨1, _⟩ => fun h => absurd rfl h)
    (by show 128 + (3 * o.val + d.val) = j.val; omega)).trans ?_
  refine (shapeCast_apply _ _ (ix2 r (⟨3 * o.val + d.val, hlt⟩ : Fin 96)) (ix3 r o d) (by
    rw [Shape.rowMajor_val_two, Shape.rowMajor_val_three]
    show (r.val * 32 + o.val) * 3 + d.val = r.val * 96 + (3 * o.val + d.val)
    omega)).trans ?_
  refine (mulf_apply _ _ _).trans ?_
  refine congrArg₂ (· * ·) ?_ rfl
  refine (addf_apply _ _ _).trans ?_
  refine congrArg₂ (· + ·) ?_ (y1_prod_apply _ _ 992 93 _ _ _ _ _ _ r o d _ _ rfl rfl)
  refine (addf_apply _ _ _).trans ?_
  refine congrArg₂ (· + ·) ?_ (y1_prod_apply _ _ 960 90 _ _ _ _ _ _ r o d _ _ rfl rfl)
  refine (addf_apply _ _ _).trans ?_
  refine congrArg₂ (· + ·) ?_ (y1_prod_apply _ _ 928 87 _ _ _ _ _ _ r o d _ _ rfl rfl)
  rfl

/-- The stored row at a column below 128 lies in the first piece of the join, which is the readout itself. -/
theorem tail_inv (v3 v30 : FVec Ideal S1024x256 .f32) (v34 : FVec Ideal S1024x128 .f32) (v36 : FVec Ideal S256x2048 .bf16)
    (r : Fin 1024) (j : Fin 384) (h : j.val < 128) :
    tail v3 v30 v34 v36 (ix2 r j) = v34 (ix2 r ⟨j.val, h⟩) := by
  unfold tail k0_pay42
  exact concatenate_apply_piece _ _ _ (ix2 r j) 0 (by show (0 : Nat) < 3; decide) S1024x128 v34 rfl rfl 0 rfl
    (ix2 r (⟨j.val, h⟩ : Fin 128))
    (fun b => match b with | ⟨0, _⟩ => fun _ => rfl | ⟨1, _⟩ => fun h => absurd rfl h)
    (by show 0 + j.val = j.val; omega)

/-- The stored row at a column 128 + 3 o + d is the sum over the 32 input vectors of the weight at column 32 i + o
    times the vector at column 3 i + d, times the normalisation. -/
theorem tail_y1 (v3 v30 : FVec Ideal S1024x256 .f32) (v34 : FVec Ideal S1024x128 .f32) (v36 : FVec Ideal S256x2048 .bf16)
    (r : Fin 1024) (o : Fin 32) (d : Fin 3) (j : Fin 384) (hj : j.val = 128 + 3 * o.val + d.val) :
    tail v3 v30 v34 v36 (ix2 r j) = (∑ i : Fin 32, W v30 v36 (ix2 r (Spec.wIdx1 i o)) * v3 (ix2 r (c3 i d))) * Spec.c := by
  refine (y1_tail_mid v3 v30 v34 v36 r o d j hj).trans ?_
  rw [y1_acc3_apply]
  exact congrArg (· * Spec.c) (y1_sum32 (fun i => y1T (W v30 v36) v3 r o d i)).symm

end Cert.KernelIdeal.Tail
end
-- ==== Proof.TailY2.lean ====
/-
  The body's tail read at the columns 224 … 383 of an output row.  Column 224 + 5 o + d of row r is the o-th mixed
  5-component vector's component d: the 5-component accumulator starts at zero and adds, for i = 0 … 31 in order, the
  product of the weight W[r, 1024 + 32 i + o] with the vector component v3[r, 96 + 5 i + d]; the total is multiplied by
  the normalisation, laid out o-major in 160 columns and joined after the 128 readout columns and the 96 columns of
  the 3-component vectors.  Each step is read at one index (r, o, d), the 32 steps are chained, and the left-nested
  total is identified with the sum over the 32 input vectors.
-/
import proofs.«173086_j69234872812251_1_alg».proof.Proof.Tail
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
noncomputable section
namespace Cert.KernelIdeal.Tail
open Cert.KernelIdeal Cert.KernelIdeal.Gen Idealize.ShloMosaic Idealize.ShloMosaic.ValueIdx
namespace Y2

/-- One outer-product term read at (r, o, d): the weight column ow + o times the vector column ox + d. -/
theorem term5 (w : FVec Ideal S1024x2048 .f32) (x : FVec Ideal S1024x256 .f32) (ow ox : Nat)
    (hw : S1024x2048.Slices ![0, ow] S1024x32) (hx : S1024x256.Slices ![0, ox] S1024x5)
    (h1 : S1024x32.ShapeCasts S1024x32x1) (h2 : S1024x5.ShapeCasts S1024x1x5)
    (h3 : S1024x32x1.Broadcasts S1024x32x5) (h4 : S1024x1x5.Broadcasts S1024x32x5)
    (r : Fin 1024) (o : Fin 32) (d : Fin 5) (kw : Fin 2048) (kx : Fin 256)
    (hkw : kw.val = ow + o.val) (hkx : kx.val = ox + d.val) :
    mulf (broadcastTo S1024x32x5 (shapeCast S1024x32x1 (extractStridedSlice S1024x32 ![0, ow] w hw) h1) h3)
      (broadcastTo S1024x32x5 (shapeCast S1024x1x5 (extractStridedSlice S1024x5 ![0, ox] x hx) h2) h4) (ix3 r o d)
      = w (ix2 r kw) * x (ix2 r kx) := by
  have hr := r.isLt; have ho := o.isLt; have hd := d.isLt
  refine (mulf_apply _ _ _).trans ?_
  refine congrArg₂ (· * ·) ?_ ?_
  · refine (broadcastTo_apply _ h3 (ix3 r o d) (ix3 r o (⟨0, Nat.one_pos⟩ : Fin 1)) (fun a => by
      match a with
      | ⟨0, _⟩ => rfl
      | ⟨1, _⟩ => rfl
      | ⟨2, _⟩ => rfl)).trans ?_
    refine (shapeCast_apply _ h1 (ix3 r o (⟨0, Nat.one_pos⟩ : Fin 1)) (ix2 r o) (by
      rw [Shape.rowMajor_val_two, Shape.rowMajor_val_three]
      show r.val * 32 + o.val = (r.val * 32 + o.val) * 1 + 0
      omega)).trans ?_
    exact slice2_axis1_apply ow w hw r o kw hkw
  · refine (broadcastTo_apply _ h4 (ix3 r o d) (ix3 r (⟨0, Nat.one_pos⟩ : Fin 1) d) (fun a => by
      match a with
      | ⟨0, _⟩ => rfl
      | ⟨1, _⟩ => rfl
      | ⟨2, _⟩ => rfl)).trans ?_
    refine (shapeCast_apply _ h2 (ix3 r (⟨0, Nat.one_pos⟩ : Fin 1) d) (ix2 r d) (by
      rw [Shape.rowMajor_val_two, Shape.rowMajor_val_three]
      show r.val * 5 + d.val = (r.val * 1 + 0) * 5 + d.val
      omega)).trans ?_
    exact slice2_axis1_apply ox x hx r d kx hkx

/-- The i-th outer-product term at (r, o, d): weight column 1024 + 32 i + o times vector column 96 + 5 i + d. -/
def T5 (w : FVec Ideal S1024x2048 .f32) (x : FVec Ideal S1024x256 .f32) (i : Fin 32) (r : Fin 1024) (o : Fin 32) (d : Fin 5) : EReal :=
  w (ix2 r (Spec.wIdx2 i o)) * x (ix2 r (c5 i d))

/-- One accumulation step read at (r, o, d): the accumulator there plus the i-th term. -/
theorem step5 (acc : FVec Ideal S1024x32x5 .f32) (w : FVec Ideal S1024x2048 .f32) (x : FVec Ideal S1024x256 .f32) (ow ox : Nat)
    (hw : S1024x2048.Slices ![0, ow] S1024x32) (hx : S1024x256.Slices ![0, ox] S1024x5)
    (h1 : S1024x32.ShapeCasts S1024x32x1) (h2 : S1024x5.ShapeCasts S1024x1x5)
    (h3 : S1024x32x1.Broadcasts S1024x32x5) (h4 : S1024x1x5.Broadcasts S1024x32x5)
    (r : Fin 1024) (o : Fin 32) (d : Fin 5) (i : Fin 32) (how : ow = 1024 + 32 * i.val) (hox : ox = 96 + 5 * i.val)
    (A : EReal) (hA : acc (ix3 r o d) = A) :
    addf acc (mulf (broadcastTo S1024x32x5 (shapeCast S1024x32x1 (extractStridedSlice S1024x32 ![0, ow] w hw) h1) h3)
      (broadcastTo S1024x32x5 (shapeCast S1024x1x5 (extractStridedSlice S1024x5 ![0, ox] x hx) h2) h4)) (ix3 r o d)
      = A + T5 w x i r o d := by
  refine (addf_apply _ _ _).trans ?_
  refine congrArg₂ (· + ·) hA ?_
  exact term5 w x ow ox hw hx h1 h2 h3 h4 r o d _ _ (by subst how; rfl) (by subst hox; rfl)

/-- The first three steps, from the zero accumulator. -/
theorem pay7_5 (x : FVec Ideal S1024x256 .f32) (v30 : FVec Ideal S1024x256 .f32) (v36 : FVec Ideal S256x2048 .bf16)
    (r : Fin 1024) (o : Fin 32) (d : Fin 5) :
    k0_pay7 x v30 v36 (ix3 r o d) = 0 + T5 (k0_pay5 v30 v36) x 0 r o d + T5 (k0_pay5 v30 v36) x 1 r o d + T5 (k0_pay5 v30 v36) x 2 r o d := by
  have hA : broadcast S1024x32x5 (Scalar.ofBits (F := Ideal) .f32 0x00000000#32) (ix3 r o d) = 0 := by
    show Ideal.ofBits .f32 0x00000000#32 = 0
    exact Ideal.ofBits_zero_f32
  unfold k0_pay7
  exact (step5 _ (k0_pay5 v30 v36) x 1088 106 _ _ _ _ _ _ r o d 2 rfl rfl _
      (step5 _ (k0_pay5 v30 v36) x 1056 101 _ _ _ _ _ _ r o d 1 rfl rfl _
      (step5 _ (k0_pay5 v30 v36) x 1024 96 _ _ _ _ _ _ r o d 0 rfl rfl _
      hA)))

/-- Steps 3 to 6. -/
theorem pay13_5 (x : FVec Ideal S1024x256 .f32) (v30 : FVec Ideal S1024x256 .f32) (v36 : FVec Ideal S256x2048 .bf16) (acc : FVec Ideal S1024x32x5 .f32)
    (r : Fin 1024) (o : Fin 32) (d : Fin 5) (A : EReal) (hA : acc (ix3 r o d) = A) :
    k0_pay13 x (k0_pay5 v30 v36) acc (k0_pay8 v30 v36) (k0_pay10 x) (ix3 r o d) = A + T5 (k0_pay5 v30 v36) x 3 r o d + T5 (k0_pay5 v30 v36) x 4 r o d + T5 (k0_pay5 v30 v36) x 5 r o d + T5 (k0_pay5 v30 v36) x 6 r o d := by
  unfold k0_pay13 k0_pay8 k0_pay10
  exact (step5 _ (k0_pay5 v30 v36) x 1216 126 _ _ _ _ _ _ r o d 6 rfl rfl _
      (step5 _ (k0_pay5 v30 v36) x 1184 121 _ _ _ _ _ _ r o d 5 rfl rfl _
      (step5 _ (k0_pay5 v30 v36) x 1152 116 _ _ _ _ _ _ r o d 4 rfl rfl _
      (step5 _ (k0_pay5 v30 v36) x 1120 111 _ _ _ _ _ _ r o d 3 rfl rfl _
      hA))))

/-- Steps 7 to 9. -/
theorem pay15_5 (x : FVec Ideal S1024x256 .f32) (w : FVec Ideal S1024x2048 .f32) (acc : FVec Ideal S1024x32x5 .f32)
    (r : Fin 1024) (o : Fin 32) (d : Fin 5) (A : EReal) (hA : acc (ix3 r o d) = A) :
    k0_pay15 x w acc (ix3 r o d) = A + T5 w x 7 r o d + T5 w x 8 r o d + T5 w x 9 r o d := by
  unfold k0_pay15
  exact (step5 _ w x 1312 141 _ _ _ _ _ _ r o d 9 rfl rfl _
      (step5 _ w x 1280 136 _ _ _ _ _ _ r o d 8 rfl rfl _
      (step5 _ w x 1248 131 _ _ _ _ _ _ r o d 7 rfl rfl _
      hA)))

/-- Steps 10 to 13. -/
theorem pay20_5 (x : FVec Ideal S1024x256 .f32) (w : FVec Ideal S1024x2048 .f32) (acc : FVec Ideal S1024x32x5 .f32)
    (r : Fin 1024) (o : Fin 32) (d : Fin 5) (A : EReal) (hA : acc (ix3 r o d) = A) :
    k0_pay20 x w acc (k0_pay17 x) (k0_pay18 w) (ix3 r o d) = A + T5 w x 10 r o d + T5 w x 11 r o d + T5 w x 12 r o d + T5 w x 13 r o d := by
  unfold k0_pay20 k0_pay17 k0_pay18
  exact (step5 _ w x 1440 161 _ _ _ _ _ _ r o d 13 rfl rfl _
      (step5 _ w x 1408 156 _ _ _ _ _ _ r o d 12 rfl rfl _
      (step5 _ w x 1376 151 _ _ _ _ _ _ r o d 11 rfl rfl _
      (step5 _ w x 1344 146 _ _ _ _ _ _ r o d 10 rfl rfl _
      hA))))

/-- Steps 14 to 17. -/
theorem pay25_5 (x : FVec Ideal S1024x256 .f32) (w : FVec Ideal S1024x2048 .f32) (acc : FVec Ideal S1024x32x5 .f32)
    (r : Fin 1024) (o : Fin 32) (d : Fin 5) (A : EReal) (hA : acc (ix3 r o d) = A) :
    k0_pay25 x w acc (k0_pay21 w) (k0_pay22 x) (ix3 r o d) = A + T5 w x 14 r o d + T5 w x 15 r o d + T5 w x 16 r o d + T5 w x 17 r o d := by
  unfold k0_pay25 k0_pay21 k0_pay22
  exact (step5 _ w x 1568 181 _ _ _ _ _ _ r o d 17 rfl rfl _
      (step5 _ w x 1536 176 _ _ _ _ _ _ r o d 16 rfl rfl _
      (step5 _ w x 1504 171 _ _ _ _ _ _ r o d 15 rfl rfl _
      (step5 _ w x 1472 166 _ _ _ _ _ _ r o d 14 rfl rfl _
      hA))))

/-- Steps 18 to 21. -/
theorem pay31_5 (x : FVec Ideal S1024x256 .f32) (w : FVec Ideal S1024x2048 .f32) (acc : FVec Ideal S1024x32x5 .f32)
    (r : Fin 1024) (o : Fin 32) (d : Fin 5) (A : EReal) (hA : acc (ix3 r o d) = A) :
    k0_pay31 x w acc (k0_pay26 w) (k0_pay28 x) (ix3 r o d) = A + T5 w x 18 r o d + T5 w x 19 r o d + T5 w x 20 r o d + T5 w x 21 r o d := by
  unfold k0_pay31 k0_pay26 k0_pay28
  exact (step5 _ w x 1696 201 _ _ _ _ _ _ r o d 21 rfl rfl _
      (step5 _ w x 1664 196 _ _ _ _ _ _ r o d 20 rfl rfl _
      (step5 _ w x 1632 191 _ _ _ _ _ _ r o d 19 rfl rfl _
      (step5 _ w x 1600 186 _ _ _ _ _ _ r o d 18 rfl rfl _
      hA))))

/-- Steps 22 to 24. -/
theorem pay33_5 (x : FVec Ideal S1024x256 .f32) (w : FVec Ideal S1024x2048 .f32) (acc : FVec Ideal S1024x32x5 .f32)
    (r : Fin 1024) (o : Fin 32) (d : Fin 5) (A : EReal) (hA : acc (ix3 r o d) = A) :
    k0_pay33 x w acc (ix3 r o d) = A + T5 w x 22 r o d + T5 w x 23 r o d + T5 w x 24 r o d := by
  unfold k0_pay33
  exact (step5 _ w x 1792 216 _ _ _ _ _ _ r o d 24 rfl rfl _
      (step5 _ w x 1760 211 _ _ _ _ _ _ r o d 23 rfl rfl _
      (step5 _ w x 1728 206 _ _ _ _ _ _ r o d 22 rfl rfl _
      hA)))

/-- Steps 25 to 28. -/
theorem pay38_5 (x : FVec Ideal S1024x256 .f32) (w : FVec Ideal S1024x2048 .f32) (acc : FVec Ideal S1024x32x5 .f32)
    (r : Fin 1024) (o : Fin 32) (d : Fin 5) (A : EReal) (hA : acc (ix3 r o d) = A) :
    k0_pay38 x w acc (k0_pay35 x) (k0_pay36 w) (ix3 r o d) = A + T5 w x 25 r o d + T5 w x 26 r o d + T5 w x 27 r o d + T5 w x 28 r o d := by
  unfold k0_pay38 k0_pay35 k0_pay36
  exact (step5 _ w x 1920 236 _ _ _ _ _ _ r o d 28 rfl rfl _
      (step5 _ w x 1888 231 _ _ _ _ _ _ r o d 27 rfl rfl _
      (step5 _ w x 1856 226 _ _ _ _ _ _ r o d 26 rfl rfl _
      (step5 _ w x 1824 221 _ _ _ _ _ _ r o d 25 rfl rfl _
      hA))))

/-- The 5-component accumulator after the first 29 steps, read at (r, o, d). -/
theorem acc5_apply5 (v3 v30 : FVec Ideal S1024x256 .f32) (v36 : FVec Ideal S256x2048 .bf16) (r : Fin 1024) (o : Fin 32) (d : Fin 5) :
    acc5 v3 v30 v36 (ix3 r o d) = 0 + T5 (W v30 v36) v3 0 r o d + T5 (W v30 v36) v3 1 r o d + T5 (W v30 v36) v3 2 r o d + T5 (W v30 v36) v3 3 r o d + T5 (W v30 v36) v3 4 r o d + T5 (W v30 v36) v3 5 r o d + T5 (W v30 v36) v3 6 r o d + T5 (W v30 v36) v3 7 r o d + T5 (W v30 v36) v3 8 r o d + T5 (W v30 v36) v3 9 r o d + T5 (W v30 v36) v3 10 r o d + T5 (W v30 v36) v3 11 r o d + T5 (W v30 v36) v3 12 r o d + T5 (W v30 v36) v3 13 r o d + T5 (W v30 v36) v3 14 r o d + T5 (W v30 v36) v3 15 r o d + T5 (W v30 v36) v3 16 r o d + T5 (W v30 v36) v3 17 r o d + T5 (W v30 v36) v3 18 r o d + T5 (W v30 v36) v3 19 r o d + T5 (W v30 v36) v3 20 r o d + T5 (W v30 v36) v3 21 r o d + T5 (W v30 v36) v3 22 r o d + T5 (W v30 v36) v3 23 r o d + T5 (W v30 v36) v3 24 r o d + T5 (W v30 v36) v3 25 r o d + T5 (W v30 v36) v3 26 r o d + T5 (W v30 v36) v3 27 r o d + T5 (W v30 v36) v3 28 r o d := by
  unfold acc5 W
  exact pay38_5 v3 _ _ r o d _ (pay33_5 v3 _ _ r o d _ (pay31_5 v3 _ _ r o d _ (pay25_5 v3 _ _ r o d _
    (pay20_5 v3 _ _ r o d _ (pay15_5 v3 _ _ r o d _ (pay13_5 v3 v30 v36 _ r o d _ (pay7_5 v3 v30 v36 r o d)))))))

/-- A sum over 32 indices, written out from the left as the body accumulates it. -/
theorem sum32_5 (f : Fin 32 → EReal) : ∑ i, f i = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero]
  rfl

/-- The last three steps, the scaling, the flattening and the join, read at column 224 + 5 o + d of row r. -/
theorem pay42_5 (x : FVec Ideal S1024x256 .f32) (v34 : FVec Ideal S1024x128 .f32) (w : FVec Ideal S1024x2048 .f32)
    (a3 : FVec Ideal S1024x32x3 .f32) (acc : FVec Ideal S1024x32x5 .f32) (p41 : FVec Ideal S1024x32x3 .f32)
    (r : Fin 1024) (o : Fin 32) (d : Fin 5) (j : Fin 384) (hj : j.val = 224 + 5 * o.val + d.val)
    (A : EReal) (hA : acc (ix3 r o d) = A) :
    k0_pay42 x v34 w a3 acc (k0_pay39 w) (k0_pay40 x) p41 (ix2 r j)
      = (A + T5 w x 29 r o d + T5 w x 30 r o d + T5 w x 31 r o d) * Spec.c := by
  have ho := o.isLt; have hd := d.isLt
  unfold k0_pay42 k0_pay39 k0_pay40
  refine (concatenate_apply_piece (1 : Fin 2) _ _ (ix2 r j) 2 (by exact Nat.lt_succ_self 2) S1024x160 _ (by exact rfl) (by exact rfl) 224 (by exact rfl)
    (ix2 r (⟨5 * o.val + d.val, by omega⟩ : Fin 160)) (fun b => by
      match b with
      | ⟨0, _⟩ => exact fun _ => rfl
      | ⟨1, _⟩ => exact fun hb => absurd rfl hb) (by show 224 + (5 * o.val + d.val) = j.val; omega)).trans ?_
  refine (shapeCast_apply _ _ _ (ix3 r o d) (by
    rw [Shape.rowMajor_val_two, Shape.rowMajor_val_three]
    show (r.val * 32 + o.val) * 5 + d.val = r.val * 160 + (5 * o.val + d.val)
    omega)).trans ?_
  refine (mulf_apply _ _ _).trans ?_
  refine congrArg₂ (· * ·) ?_ rfl
  exact (step5 _ w x 2016 251 _ _ _ _ _ _ r o d 31 rfl rfl _
      (step5 _ w x 1984 246 _ _ _ _ _ _ r o d 30 rfl rfl _
      (step5 _ w x 1952 241 _ _ _ _ _ _ r o d 29 rfl rfl _
      hA)))

end Y2

/-- Column 224 + 5 o + d of row r of what the body stores is the o-th mixed 5-component vector's component d:
    the sum over the 32 input vectors of weight times component, times the normalisation. -/
theorem tail_y2 (v3 v30 : FVec Ideal S1024x256 .f32) (v34 : FVec Ideal S1024x128 .f32) (v36 : FVec Ideal S256x2048 .bf16)
    (r : Fin 1024) (o : Fin 32) (d : Fin 5) (j : Fin 384) (hj : j.val = 224 + 5 * o.val + d.val) :
    tail v3 v30 v34 v36 (ix2 r j) = (∑ i : Fin 32, W v30 v36 (ix2 r (Spec.wIdx2 i o)) * v3 (ix2 r (c5 i d))) * Spec.c := by
  unfold tail
  refine (Y2.pay42_5 v3 v34 (W v30 v36) _ _ _ r o d j hj _ (Y2.acc5_apply5 v3 v30 v36 r o d)).trans ?_
  refine congrArg (· * Spec.c) ?_
  exact (Y2.sum32_5 (fun i => Y2.T5 (W v30 v36) v3 i r o d)).symm

end Cert.KernelIdeal.Tail
end
-- ==== Proof.Blocks.lean ====
/-
  From blocks to the array.

  The output array has 65536 rows of 384 entries; grid point t writes back rows 1024 t … 1024 t + 1023.  Given
  that the body's stored block, entry (r, j), is the row function of row r of the feature and conditioning
  blocks (the hypothesis RowFact, proved elsewhere), every point's block is the restriction of ONE whole-array
  function: row b of the array is the row function of row b of the two batch arrays, because the batch blocks at
  point t are rows 1024 t … of their arrays and the weight blocks are their arrays whole at every point.  The
  64 blocks tile the array, so after the run the array is that function.  The two bias rows reach the kernel
  through a host reshape from [512] to [1, 512], which keeps entry n at (0, n).
-/
import proofs.«173086_j69234872812251_1_alg».proof.Proof.Gen.KernelIdeal.Value
import proofs.«173086_j69234872812251_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The output array as one function of the two batch arrays and the weights: row b is the row function of row b. -/
def G (a0 : S65536x512.Idx → EReal) (a1 : S65536x64.Idx → EReal)
    (W1 : Fin 64 → Fin 512 → EReal) (b1 : Fin 512 → EReal) (A : Fin 256 → Fin 256 → EReal)
    (W2 : Fin 64 → Fin 512 → EReal) (b2 : Fin 512 → EReal)
    (P : Fin 256 → Fin 128 → EReal) (H : Fin 256 → Fin 2048 → EReal) : S65536x384.Idx → EReal := fun i =>
  Spec.out (fun k => a0 (ix2 (⟨(i 0).val, (i 0).isLt⟩ : Fin 65536) k)) (fun k => a1 (ix2 (⟨(i 0).val, (i 0).isLt⟩ : Fin 65536) k))
    W1 b1 A W2 b2 P H (⟨(i 1).val, (i 1).isLt⟩ : Fin 384)

/-- The body's stored block at (r, j) is the row function of row r of the two batch blocks and the weight blocks. -/
def RowFact : Prop :=
  ∀ (x0 : Vec Ideal S1024x512 .f32) (x1 : Vec Ideal S1024x64 .f32) (x2 : Vec Ideal S64x512 .f32) (x3 : Vec Ideal S1x512 .f32)
    (x4 : Vec Ideal S256x256 .f32) (x5 : Vec Ideal S64x512 .f32) (x6 : Vec Ideal S1x512 .f32) (x7 : Vec Ideal S256x128 .f32)
    (x8 : Vec Ideal S256x2048 .f32) (r : Fin 1024) (j : Fin 384),
    out0_9 (F := Ideal) x0 x1 x2 x3 x4 x5 x6 x7 x8 (ix2 r j)
      = Spec.out (fun k => x0 (ix2 r k)) (fun k => x1 (ix2 r k)) (fun a n => x2 (ix2 a n)) (fun n => x3 (ix2 (0 : Fin 1) n))
          (fun a n => x4 (ix2 a n)) (fun a n => x5 (ix2 a n)) (fun n => x6 (ix2 (0 : Fin 1) n)) (fun a n => x7 (ix2 a n))
          (fun a n => x8 (ix2 a n)) j

/-- A stored block whose batch blocks are rows 1024 T … of two arrays is the whole-array function on those rows. -/
theorem block_read (hrow : RowFact) (X0 : S65536x512.Idx → EReal) (X1 : S65536x64.Idx → EReal)
    (x0 : Vec Ideal S1024x512 .f32) (x1 : Vec Ideal S1024x64 .f32) (x2 : Vec Ideal S64x512 .f32) (x3 : Vec Ideal S1x512 .f32)
    (x4 : Vec Ideal S256x256 .f32) (x5 : Vec Ideal S64x512 .f32) (x6 : Vec Ideal S1x512 .f32) (x7 : Vec Ideal S256x128 .f32)
    (x8 : Vec Ideal S256x2048 .f32) (T : Nat) (hT : T < 64)
    (h0 : ∀ (r : Fin 1024) (k : Fin 512), x0 (ix2 r k) = X0 (ix2 (⟨T * 1024 + r.val, by omega⟩ : Fin 65536) k))
    (h1 : ∀ (r : Fin 1024) (k : Fin 64), x1 (ix2 r k) = X1 (ix2 (⟨T * 1024 + r.val, by omega⟩ : Fin 65536) k))
    (y : S1024x384.Idx) (i : S65536x384.Idx) (hi0 : (i 0).val = T * 1024 + (y 0).val) (hi1 : (i 1).val = (y 1).val) :
    out0_9 (F := Ideal) x0 x1 x2 x3 x4 x5 x6 x7 x8 y
      = G X0 X1 (fun a n => x2 (ix2 a n)) (fun n => x3 (ix2 (0 : Fin 1) n)) (fun a n => x4 (ix2 a n)) (fun a n => x5 (ix2 a n))
          (fun n => x6 (ix2 (0 : Fin 1) n)) (fun a n => x7 (ix2 a n)) (fun a n => x8 (ix2 a n)) i := by
  obtain ⟨r, j, rfl⟩ : ∃ (r : Fin 1024) (j : Fin 384), y = ix2 r j := ⟨y 0, y 1, eq_ix2 y⟩
  rw [hrow]
  unfold G
  have e0 : (⟨(i 0).val, (i 0).isLt⟩ : Fin 65536) = ⟨T * 1024 + r.val, by omega⟩ := Fin.ext hi0
  have e1 : (⟨(i 1).val, (i 1).isLt⟩ : Fin 384) = j := Fin.ext hi1
  rw [e0, e1]
  simp only [h0, h1]

variable (m : (ℓ : Loc nD τ sig) → Buf (Elt Ideal) ℓ) (ρ : Dev nD → PrngReg)

/-- Where each window's block sits at point t: the two batch windows and the output window at block row t, the seven
    weight windows at the origin (decided over the 64 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The whole-array function over the arrays as the region finds them. -/
def Gk (c : Dev nD) : S65536x384.Idx → EReal :=
  G (V m c main_arg0) (V m c main_arg1) (fun a n => V m c main_arg2 (ix2 a n)) (fun n => V m c main_v0 (ix2 (0 : Fin 1) n))
    (fun a n => V m c main_arg4 (ix2 a n)) (fun a n => V m c main_arg5 (ix2 a n)) (fun n => V m c main_v1 (ix2 (0 : Fin 1) n))
    (fun a n => V m c main_arg7 (ix2 a n)) (fun a n => V m c main_arg8 (ix2 a n))

/-- The feature block at point t is rows 1024 t … of the feature array. -/
theorem blk0 (c : Dev nD) (t : Fin cfg0.N) (r : Fin 1024) (k : Fin 512) :
    iblk m c 0 t (ix2 r k) = V m c main_arg0 (ix2 (⟨t.val * 1024 + r.val, by have := t.isLt; have h : cfg0.N = 64 := N_0; omega⟩ : Fin 65536) k) := by
  obtain ⟨e0, e1, -⟩ := idx_facts t
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 512 + 1 * k.val = k.val; rw [e1]; omega

/-- The conditioning block at point t is rows 1024 t … of the conditioning array. -/
theorem blk1 (c : Dev nD) (t : Fin cfg0.N) (r : Fin 1024) (k : Fin 64) :
    iblk m c 1 t (ix2 r k) = V m c main_arg1 (ix2 (⟨t.val * 1024 + r.val, by have := t.isLt; have h : cfg0.N = 64 := N_0; omega⟩ : Fin 65536) k) := by
  obtain ⟨-, -, e0, e1, -⟩ := idx_facts t
  show V m c main_arg1 (((cfg0.win 1).blk t).view.emb (ix2 r k)) = _
  refine congrArg (V m c main_arg1) (funext fun a => Fin.ext ?_)
  match a with
  | ⟨0, _⟩ => show win0_1.index t (0 : Fin 2) * 1024 + 1 * r.val = t.val * 1024 + r.val; rw [e0]; omega
  | ⟨1, _⟩ => show win0_1.index t (1 : Fin 2) * 64 + 1 * k.val = k.val; rw [e1]; omega

/-- A weight window's block is its array whole, at every point: windows 2 to 8. -/
theorem blk2 (c : Dev nD) (t : Fin cfg0.N) (a : Fin 64) (n : Fin 512) : iblk m c 2 t (ix2 a n) = V m c main_arg2 (ix2 a n) := by
  obtain ⟨-, -, -, -, e0, e1, -⟩ := idx_facts t
  show V m c main_arg2 (((cfg0.win 2).blk t).view.emb (ix2 a n)) = _
  refine congrArg (V m c main_arg2) (funext fun ax => Fin.ext ?_)
  match ax with
  | ⟨0, _⟩ => show win0_2.index t (0 : Fin 2) * 64 + 1 * a.val = a.val; rw [e0]; omega
  | ⟨1, _⟩ => show win0_2.index t (1 : Fin 2) * 512 + 1 * n.val = n.val; rw [e1]; omega

theorem blk3 (c : Dev nD) (t : Fin cfg0.N) (a : Fin 1) (n : Fin 512) : iblk m c 3 t (ix2 a n) = V m c main_v0 (ix2 a n) := by
  obtain ⟨-, -, -, -, -, -, e0, e1, -⟩ := idx_facts t
  show V m c main_v0 (((cfg0.win 3).blk t).view.emb (ix2 a n)) = _
  refine congrArg (V m c main_v0) (funext fun ax => Fin.ext ?_)
  match ax with
  | ⟨0, _⟩ => show win0_3.index t (0 : Fin 2) * 1 + 1 * a.val = a.val; rw [e0]; omega
  | ⟨1, _⟩ => show win0_3.index t (1 : Fin 2) * 512 + 1 * n.val = n.val; rw [e1]; omega

theorem blk4 (c : Dev nD) (t : Fin cfg0.N) (a : Fin 256) (n : Fin 256) : iblk m c 4 t (ix2 a n) = V m c main_arg4 (ix2 a n) := by
  obtain ⟨-, -, -, -, -, -, -, -, e0, e1, -⟩ := idx_facts t
  show V m c main_arg4 (((cfg0.win 4).blk t).view.emb (ix2 a n)) = _
  refine congrArg (V m c main_arg4) (funext fun ax => Fin.ext ?_)
  match ax with
  | ⟨0, _⟩ => show win0_4.index t (0 : Fin 2) * 256 + 1 * a.val = a.val; rw [e0]; omega
  | ⟨1, _⟩ => show win0_4.index t (1 : Fin 2) * 256 + 1 * n.val = n.val; rw [e1]; omega

theorem blk5 (c : Dev nD) (t : Fin cfg0.N) (a : Fin 64) (n : Fin 512) : iblk m c 5 t (ix2 a n) = V m c main_arg5 (ix2 a n) := by
  obtain ⟨-, -, -, -, -, -, -, -, -, -, e0, e1, -⟩ := idx_facts t
  show V m c main_arg5 (((cfg0.win 5).blk t).view.emb (ix2 a n)) = _
  refine congrArg (V m c main_arg5) (funext fun ax => Fin.ext ?_)
  match ax with
  | ⟨0, _⟩ => show win0_5.index t (0 : Fin 2) * 64 + 1 * a.val = a.val; rw [e0]; omega
  | ⟨1, _⟩ => show win0_5.index t (1 : Fin 2) * 512 + 1 * n.val = n.val; rw [e1]; omega

theorem blk6 (c : Dev nD) (t : Fin cfg0.N) (a : Fin 1) (n : Fin 512) : iblk m c 6 t (ix2 a n) = V m c main_v1 (ix2 a n) := by
  obtain ⟨-, -, -, -, -, -, -, -, -, -, -, -, e0, e1, -⟩ := idx_facts t
  show V m c main_v1 (((cfg0.win 6).blk t).view.emb (ix2 a n)) = _
  refine congrArg (V m c main_v1) (funext fun ax => Fin.ext ?_)
  match ax with
  | ⟨0, _⟩ => show win0_6.index t (0 : Fin 2) * 1 + 1 * a.val = a.val; rw [e0]; omega
  | ⟨1, _⟩ => show win0_6.index t (1 : Fin 2) * 512 + 1 * n.val = n.val; rw [e1]; omega

theorem blk7 (c : Dev nD) (t : Fin cfg0.N) (a : Fin 256) (n : Fin 128) : iblk m c 7 t (ix2 a n) = V m c main_arg7 (ix2 a n) := by
  obtain ⟨-, -, -, -, -, -, -, -, -, -, -, -, -, -, e0, e1, -⟩ := idx_facts t
  show V m c main_arg7 (((cfg0.win 7).blk t).view.emb (ix2 a n)) = _
  refine congrArg (V m c main_arg7) (funext fun ax => Fin.ext ?_)
  match ax with
  | ⟨0, _⟩ => show win0_7.index t (0 : Fin 2) * 256 + 1 * a.val = a.val; rw [e0]; omega
  | ⟨1, _⟩ => show win0_7.index t (1 : Fin 2) * 128 + 1 * n.val = n.val; rw [e1]; omega

theorem blk8 (c : Dev nD) (t : Fin cfg0.N) (a : Fin 256) (n : Fin 2048) : iblk m c 8 t (ix2 a n) = V m c main_arg8 (ix2 a n) := by
  obtain ⟨-, -, -, -, -, -, -, -, -, -, -, -, -, -, -, -, e0, e1, -⟩ := idx_facts t
  show V m c main_arg8 (((cfg0.win 8).blk t).view.emb (ix2 a n)) = _
  refine congrArg (V m c main_arg8) (funext fun ax => Fin.ext ?_)
  match ax with
  | ⟨0, _⟩ => show win0_8.index t (0 : Fin 2) * 256 + 1 * a.val = a.val; rw [e0]; omega
  | ⟨1, _⟩ => show win0_8.index t (1 : Fin 2) * 2048 + 1 * n.val = n.val; rw [e1]; omega

/-- What point t writes back is block t of the whole-array function. -/
theorem flushed_eq (hrow : RowFact) (c : Dev nD) (t : Fin cfg0.N) :
    (dats m 0 c).flushed 9 t = ((cfg0.win 9).blk t).view.read (Elt Ideal) (Gk m c) := by
  rw [Value.flushed9]
  obtain ⟨-, -, -, -, -, -, -, -, -, -, -, -, -, -, -, -, -, -, e0, e1⟩ := idx_facts t
  funext y
  show out0_9 (F := Ideal) (iblk m c 0 t) (iblk m c 1 t) (iblk m c 2 t) (iblk m c 3 t) (iblk m c 4 t) (iblk m c 5 t) (iblk m c 6 t) (iblk m c 7 t) (iblk m c 8 t) y
    = Gk m c (((cfg0.win 9).blk t).view.emb y)
  have ht : t.val < 64 := by have := t.isLt; have h : cfg0.N = 64 := N_0; omega
  refine (block_read hrow (V m c main_arg0) (V m c main_arg1) (iblk m c 0 t) (iblk m c 1 t) (iblk m c 2 t) (iblk m c 3 t) (iblk m c 4 t)
    (iblk m c 5 t) (iblk m c 6 t) (iblk m c 7 t) (iblk m c 8 t) t.val ht (blk0 m c t) (blk1 m c t) y (((cfg0.win 9).blk t).view.emb y) ?_ ?_).trans ?_
  · show win0_9.index t (0 : Fin 2) * 1024 + 1 * (y 0).val = t.val * 1024 + (y 0).val; rw [e0]; omega
  · show win0_9.index t (1 : Fin 2) * 384 + 1 * (y 1).val = (y 1).val; rw [e1]; omega
  · unfold Gk
    simp only [blk2, blk3, blk4, blk5, blk6, blk7, blk8]

/-- An index of the array is in point t's block iff each coordinate is in the block's range on its axis. -/
theorem mem_blk (t : Fin cfg0.N) (i : S65536x384.Idx) :
    i ∈ ((cfg0.win 9).blk t).view.set ↔ ∀ a : Fin 2, win0_9.index t a * S1024x384.size a ≤ (i a).val ∧ (i a).val < win0_9.index t a * S1024x384.size a + S1024x384.size a := by
  show i ∈ ((View.whole main_v2).slice (win0_9.rect t)).set ↔ _
  rw [View.set_slice_whole, Rect.mem_set_unit]
  exact Iff.rfl

/-- The 64 blocks tile the array: row b lies in the block of point b / 1024. -/
theorem cover (i : S65536x384.Idx) : ∃ t : Fin cfg0.N, (cfg0.win 9).flush t = true ∧ i ∈ ((cfg0.win 9).blk t).view.set := by
  have hi0 : (i 0).val < 65536 := (i 0).isLt
  have hi1 : (i 1).val < 384 := (i 1).isLt
  have hN : cfg0.N = 64 := N_0
  have ht : (i 0).val / 1024 < cfg0.N := by omega
  refine ⟨⟨(i 0).val / 1024, ht⟩, flush0_9 _, ?_⟩
  obtain ⟨-, -, -, -, -, -, -, -, -, -, -, -, -, -, -, -, -, -, e0, e1⟩ := idx_facts ⟨(i 0).val / 1024, ht⟩
  rw [mem_blk]
  intro a
  match a with
  | ⟨0, _⟩ =>
    show win0_9.index ⟨(i 0).val / 1024, ht⟩ (0 : Fin 2) * 1024 ≤ (i 0).val ∧ (i 0).val < win0_9.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_9.index ⟨(i 0).val / 1024, ht⟩ (1 : Fin 2) * 384 ≤ (i 1).val ∧ (i 1).val < win0_9.index ⟨(i 0).val / 1024, ht⟩ (1 : Fin 2) * 384 + 384
    rw [e1]; omega

/-- After the run the output array is the whole-array function of the arrays as the region finds them. -/
theorem final (hrow : RowFact) (c : Dev nD) : (dats m 0 c).arrAt 9 cfg0.N = Gk m c :=
  (dats m 0 c).arrAt_eq_of_cover 9 (Gk m c) (fun t _ => flushed_eq m hrow c t) cover

/-- The first bias row as the region finds it: the bias vector reshaped to one row. -/
theorem V_v0 (c : Dev nD) (n : Fin 512) :
    V m c main_v0 (ix2 (0 : Fin 1) n) = m ((c : Thread nD τ).loc main_arg3) (ix1 n) := by
  have e : (V m c main_v0 : S1x512.Idx → EReal) = shapeCast S1x512 (m ((c : Thread nD τ).loc main_arg3)) shapeCasts_S512_S1x512 := by
    dsimp only [Gen.V, Gen.hostOps0]; after_results; rfl
  rw [e]
  exact shapeCast_a_1a_apply _ _ 0 n

/-- The second bias row as the region finds it. -/
theorem V_v1 (c : Dev nD) (n : Fin 512) :
    V m c main_v1 (ix2 (0 : Fin 1) n) = m ((c : Thread nD τ).loc main_arg6) (ix1 n) := by
  have e : (V m c main_v1 : S1x512.Idx → EReal) = shapeCast S1x512 (m ((c : Thread nD τ).loc main_arg6)) shapeCasts_S512_S1x512 := by
    dsimp only [Gen.V, Gen.hostOps0]; after_results; rfl
  rw [e]
  exact shapeCast_a_1a_apply _ _ 0 n

/-- The whole-array function over the arrays as launched. -/
def Gm (c : Dev nD) : S65536x384.Idx → EReal :=
  G (m ((c : Thread nD τ).loc main_arg0)) (m ((c : Thread nD τ).loc main_arg1))
    (fun a n => m ((c : Thread nD τ).loc main_arg2) (ix2 a n)) (fun n => m ((c : Thread nD τ).loc main_arg3) (ix1 n))
    (fun a n => m ((c : Thread nD τ).loc main_arg4) (ix2 a n)) (fun a n => m ((c : Thread nD τ).loc main_arg5) (ix2 a n))
    (fun n => m ((c : Thread nD τ).loc main_arg6) (ix1 n))
    (fun a n => m ((c : Thread nD τ).loc main_arg7) (ix2 a n)) (fun a n => m ((c : Thread nD τ).loc main_arg8) (ix2 a n))

theorem Gk_eq_Gm (c : Dev nD) : Gk m c = Gm m c := by
  have e3 : (fun n : Fin 512 => V m c main_v0 (ix2 (0 : Fin 1) n)) = fun n => m ((c : Thread nD τ).loc main_arg3) (ix1 n) :=
    funext fun n => V_v0 m c n
  have e6 : (fun n : Fin 512 => V m c main_v1 (ix2 (0 : Fin 1) n)) = fun n => m ((c : Thread nD τ).loc main_arg6) (ix1 n) :=
    funext fun n => V_v1 m c n
  unfold Gk Gm
  rw [e3, e6, V_main_arg0, V_main_arg1, V_main_arg2, V_main_arg4, V_main_arg5, V_main_arg7, V_main_arg8]

/-- The kernel's run: the output array ends at the whole-array function of the arguments, which are unchanged. -/
theorem run (hrow : RowFact) : θ_run defs (onTc (τ := τ) (main (F := Ideal))) ⟨m, fun _ => 0, ρ⟩ fun r => ∀ c : Dev nD,
      r.2.mem ((c : Thread nD τ).loc main_v2) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m hrow c).trans (Gk_eq_Gm m c)), (h c).2⟩)
    (Value.run_blocks m ρ)

end Cert.KernelIdeal.Blocks

end
-- ==== Proof.KerBlock.lean ====
/-
  The body's stored block is the row function, entry by entry.

  The one store of the body writes the tail of Tail.lean applied to four values of the loaded blocks: the second
  half of the feature columns, the scalars after the second scale and shift, the invariant readout, and the
  mixing-weight block in its narrow format.  Columns 0 … 127 of a stored row are the readout; columns 128 + 3 o + d
  are the scaled sum over the input vectors i of (mixing weight 32 i + o) times (feature column 256 + 3 i + d);
  columns 224 + 5 o + d the same with mixing weight 1024 + 32 i + o and feature column 352 + 5 i + d.  Reading the
  four values at an entry (KerRow.lean) turns each into the corresponding piece of the row function.
-/
import proofs.«173086_j69234872812251_1_alg».proof.Proof.Gen.KernelIdeal.Frame
import proofs.«173086_j69234872812251_1_alg».proof.Proof.KerRow
import proofs.«173086_j69234872812251_1_alg».proof.Proof.TailY1
import proofs.«173086_j69234872812251_1_alg».proof.Proof.TailY2
import proofs.«173086_j69234872812251_1_alg».proof.Proof.Blocks

noncomputable section

namespace Cert.KernelIdeal.KerBlock

open Cert.KernelIdeal Cert.KernelIdeal.Gen Idealize.ShloMosaic Idealize.ShloMosaic.ValueIdx
open Cert.KernelIdeal.KerRow Cert.KernelIdeal.Tail

theorem hz : (![0, 0] : Fin 2 → Nat) = fun _ => 0 := funext fun a => by fin_cases a <;> rfl

/-- The stored block is the tail of the four values of the loaded blocks. -/
theorem out_eq_tail (x0 : Vec Ideal S1024x512 .f32) (x1 : Vec Ideal S1024x64 .f32) (x2 : Vec Ideal S64x512 .f32)
    (x3 : Vec Ideal S1x512 .f32) (x4 : Vec Ideal S256x256 .f32) (x5 : Vec Ideal S64x512 .f32) (x6 : Vec Ideal S1x512 .f32)
    (x7 : Vec Ideal S256x128 .f32) (x8 : Vec Ideal S256x2048 .f32) :
    out0_9 (F := Ideal) x0 x1 x2 x3 x4 x5 x6 x7 x8
      = tail (k0_pay1 x0) (k0_pay2 x0 x1 x2 x3 x4 x5 x6) (k0_pay3 x0 x1 x2 x3 x4 x5 x6 x7) (k0_pay4 x8) := by
  unfold out0_9
  rw [View.canon_unit_zero hz]
  simp only [View.ld_unit_zero (S := S1024x512) hz, View.ld_unit_zero (S := S1024x64) hz, View.ld_unit_zero (S := S64x512) hz,
    View.ld_unit_zero (S := S1x512) hz, View.ld_unit_zero (S := S256x256) hz, View.ld_unit_zero (S := S256x128) hz,
    View.ld_unit_zero (S := S256x2048) hz]
  rfl

/-- Feature column 256 + (3 i + d) is the column the row function calls component d of the i-th 3-component vector. -/
theorem hi_c3 (i : Fin 32) (d : Fin 3) : Spec.hi (c3 i d) = Spec.eIdx1 i d :=
  Fin.ext (by show 256 + (3 * i.val + d.val) = 256 + 3 * i.val + d.val; omega)

/-- Feature column 256 + (96 + 5 i + d) is component d of the i-th 5-component vector. -/
theorem hi_c5 (i : Fin 32) (d : Fin 5) : Spec.hi (c5 i d) = Spec.eIdx2 i d :=
  Fin.ext (by show 256 + (96 + 5 * i.val + d.val) = 352 + 5 * i.val + d.val; omega)

/-- Entry (r, j) of the stored block is the row function of row r. -/
theorem block_apply : Blocks.RowFact := by
  intro x0 x1 x2 x3 x4 x5 x6 x7 x8 r j
  rw [out_eq_tail]
  by_cases h1 : j.val < 128
  · rw [tail_inv _ _ _ _ r j h1, Spec.out_inv _ _ _ _ _ _ _ _ _ j h1]
    exact pay3_apply x0 x1 x2 x3 x4 x5 x6 x7 r ⟨j.val, h1⟩
  · by_cases h2 : j.val < 224
    · have ho : (j.val - 128) / 3 < 32 := by omega
      have hd : (j.val - 128) % 3 < 3 := by omega
      have hj : j.val = 128 + 3 * (⟨(j.val - 128) / 3, ho⟩ : Fin 32).val + (⟨(j.val - 128) % 3, hd⟩ : Fin 3).val := by
        show j.val = 128 + 3 * ((j.val - 128) / 3) + (j.val - 128) % 3; omega
      rw [tail_y1 _ _ _ _ r ⟨(j.val - 128) / 3, ho⟩ ⟨(j.val - 128) % 3, hd⟩ j hj, Spec.out_y1 _ _ _ _ _ _ _ _ _ j _ _ hj]
      unfold Spec.y1
      congr 1
      refine Finset.sum_congr rfl fun i _ => ?_
      rw [W_apply x0 x1 x2 x3 x4 x5 x6 x8 r, pay1_apply x0 r, hi_c3]
    · have hj384 := j.isLt
      have ho : (j.val - 224) / 5 < 32 := by omega
      have hd : (j.val - 224) % 5 < 5 := by omega
      have hj : j.val = 224 + 5 * (⟨(j.val - 224) / 5, ho⟩ : Fin 32).val + (⟨(j.val - 224) % 5, hd⟩ : Fin 5).val := by
        show j.val = 224 + 5 * ((j.val - 224) / 5) + (j.val - 224) % 5; omega
      rw [tail_y2 _ _ _ _ r ⟨(j.val - 224) / 5, ho⟩ ⟨(j.val - 224) % 5, hd⟩ j hj, Spec.out_y2 _ _ _ _ _ _ _ _ _ j _ _ hj]
      unfold Spec.y2
      congr 1
      refine Finset.sum_congr rfl fun i _ => ?_
      rw [W_apply x0 x1 x2 x3 x4 x5 x6 x8 r, pay1_apply x0 r, hi_c5]

end Cert.KernelIdeal.KerBlock

end
-- ==== Proof.RefRow.lean ====
/-
  The reference program's result, entry by entry, is the row function of Spec.lean.

  The reference is a straight line of whole-array operations.  Read at row b, each stage is the matching stage of
  the row function of row b of the two batch arrays: a matrix product is the sum over its contracted index, a bias
  broadcast reads the bias entry of the column, a column slice shifts the column by its offset, a reshape between
  [b, 32 k + o] and [b, k, o] (or [b, 3 k + d] and [b, k, d]) keeps the row and splits or joins the column, the batched
  contraction over the input-vector axis is the sum over the 32 input vectors, and the two joins place the readout
  in columns 0 … 127, the 3-component vectors in 128 … 223 and the 5-component vectors in 224 … 383.
-/
import proofs.«173086_j69234872812251_1_alg».proof.Proof.Gen.ReferenceIdeal.Read
import proofs.«173086_j69234872812251_1_alg».proof.Proof.Spec
import Idealize.ShloMosaic.Lib.Pipeline.Value
import Idealize.ShloMosaic.Lib.ValueIdx
import Idealize.ShloMosaic.PureOps.Ideal.Laws
noncomputable section
namespace Cert.ReferenceIdeal.RefRow
open Cert.ReferenceIdeal Cert.ReferenceIdeal.Read Idealize.ShloMosaic Idealize.ShloMosaic.ValueIdx

variable (x0 : (⟨S65536x512, .f32⟩ : BufTy).Contents (Elt Ideal)) (x1 : (⟨S65536x64, .f32⟩ : BufTy).Contents (Elt Ideal)) (x2 : (⟨S64x512, .f32⟩ : BufTy).Contents (Elt Ideal)) (x3 : (⟨S512, .f32⟩ : BufTy).Contents (Elt Ideal)) (x4 : (⟨S256x256, .f32⟩ : BufTy).Contents (Elt Ideal)) (x5 : (⟨S64x512, .f32⟩ : BufTy).Contents (Elt Ideal)) (x6 : (⟨S512, .f32⟩ : BufTy).Contents (Elt Ideal)) (x7 : (⟨S256x128, .f32⟩ : BufTy).Contents (Elt Ideal)) (x8 : (⟨S256x2048, .f32⟩ : BufTy).Contents (Elt Ideal))

/-- The first conditioning projection of row b, at column n. -/
theorem gb1 (b : Fin 65536) (n : Fin 512) :
    val_main_v5 (F := Ideal) x1 x2 x3 (ix2 b n) = Spec.gb (fun k => x1 (ix2 b k)) (fun a n => x2 (ix2 a n)) (fun n => x3 (ix1 n)) n := by
  have e1 : ∀ k : Fin 64, lidx_main_v2 (ix2 b n) k = ix2 b k := fun k => funext fun a => match a with | ⟨0, _⟩ => rfl | ⟨1, _⟩ => rfl
  have e2 : ∀ k : Fin 64, ridx_main_v2 (ix2 b n) k = ix2 k n := fun k => funext fun a => match a with | ⟨0, _⟩ => rfl | ⟨1, _⟩ => rfl
  have e3 : idx_main_v3 (idx_main_v4 (ix2 b n)) = ix1 n := funext fun a => match a with | ⟨0, _⟩ => rfl
  unfold Spec.gb
  show val_main_v2 (F := Ideal) x1 x2 (ix2 b n) + val_main_v4 (F := Ideal) x3 (ix2 b n) = _
  rw [val_main_v2_apply, val_main_v4_apply, val_main_v3_apply, e3]
  congr 1
  exact Finset.sum_congr rfl fun k _ => by rw [e1, e2]

/-- The second conditioning projection of row b, at column n. -/
theorem gb2 (b : Fin 65536) (n : Fin 512) :
    val_main_v14 (F := Ideal) x1 x5 x6 (ix2 b n) = Spec.gb (fun k => x1 (ix2 b k)) (fun a n => x5 (ix2 a n)) (fun n => x6 (ix1 n)) n := by
  have e1 : ∀ k : Fin 64, lidx_main_v11 (ix2 b n) k = ix2 b k := fun k => funext fun a => match a with | ⟨0, _⟩ => rfl | ⟨1, _⟩ => rfl
  have e2 : ∀ k : Fin 64, ridx_main_v11 (ix2 b n) k = ix2 k n := fun k => funext fun a => match a with | ⟨0, _⟩ => rfl | ⟨1, _⟩ => rfl
  have e3 : idx_main_v12 (idx_main_v13 (ix2 b n)) = ix1 n := funext fun a => match a with | ⟨0, _⟩ => rfl
  unfold Spec.gb
  show val_main_v11 (F := Ideal) x1 x5 (ix2 b n) + val_main_v13 (F := Ideal) x6 (ix2 b n) = _
  rw [val_main_v11_apply, val_main_v13_apply, val_main_v12_apply, e3]
  congr 1
  exact Finset.sum_congr rfl fun k _ => by rw [e1, e2]

/-- The scalars of row b after the first scale and shift. -/
theorem s1_eq (b : Fin 65536) (p : Fin 256) :
    val_main_v9 (F := Ideal) x0 x1 x2 x3 (ix2 b p) = Spec.s1 (fun k => x0 (ix2 b k)) (fun k => x1 (ix2 b k)) (fun a n => x2 (ix2 a n)) (fun n => x3 (ix1 n)) p := by
  have e0 : idx_main_v0 (ix2 b p) = ix2 b (Spec.lo p) := funext fun a => match a with | ⟨0, _⟩ => rfl | ⟨1, _⟩ => rfl
  have e6 : idx_main_v6 (ix2 b p) = ix2 b (Spec.lo p) := funext fun a => match a with | ⟨0, _⟩ => rfl | ⟨1, _⟩ => rfl
  have e8 : idx_main_v8 (ix2 b p) = ix2 b (Spec.hi p) := funext fun a => match a with | ⟨0, _⟩ => rfl | ⟨1, _⟩ => rfl
  unfold Spec.s1
  show val_main_v0 (F := Ideal) x0 (ix2 b p) * val_main_v6 (F := Ideal) x1 x2 x3 (ix2 b p)
      + val_main_v8 (F := Ideal) x1 x2 x3 (ix2 b p) = _
  rw [val_main_v0_apply, val_main_v6_apply, val_main_v8_apply, e0, e6, e8, gb1, gb1]

/-- The scalars of row b after the linear layer. -/
theorem s2_eq (b : Fin 65536) (q : Fin 256) :
    val_main_v10 (F := Ideal) x0 x1 x2 x3 x4 (ix2 b q) = Spec.s2 (fun k => x0 (ix2 b k)) (fun k => x1 (ix2 b k)) (fun a n => x2 (ix2 a n)) (fun n => x3 (ix1 n)) (fun a n => x4 (ix2 a n)) q := by
  unfold Spec.s2
  rw [val_main_v10_apply]
  refine Finset.sum_congr rfl fun p _ => ?_
  have el : lidx_main_v10 (ix2 b q) p = ix2 b p := funext fun a => match a with | ⟨0, _⟩ => rfl | ⟨1, _⟩ => rfl
  have er : ridx_main_v10 (ix2 b q) p = ix2 p q := funext fun a => match a with | ⟨0, _⟩ => rfl | ⟨1, _⟩ => rfl
  rw [el, er, s1_eq]

/-- The scalars of row b after the second scale and shift. -/
theorem s3_eq (b : Fin 65536) (q : Fin 256) :
    val_main_v18 (F := Ideal) x0 x1 x2 x3 x4 x5 x6 (ix2 b q) = Spec.s3 (fun k => x0 (ix2 b k)) (fun k => x1 (ix2 b k)) (fun a n => x2 (ix2 a n)) (fun n => x3 (ix1 n)) (fun a n => x4 (ix2 a n)) (fun a n => x5 (ix2 a n)) (fun n => x6 (ix1 n)) q := by
  have e15 : idx_main_v15 (ix2 b q) = ix2 b (Spec.lo q) := funext fun a => match a with | ⟨0, _⟩ => rfl | ⟨1, _⟩ => rfl
  have e17 : idx_main_v17 (ix2 b q) = ix2 b (Spec.hi q) := funext fun a => match a with | ⟨0, _⟩ => rfl | ⟨1, _⟩ => rfl
  unfold Spec.s3
  show val_main_v10 (F := Ideal) x0 x1 x2 x3 x4 (ix2 b q) * val_main_v15 (F := Ideal) x1 x5 x6 (ix2 b q)
      + val_main_v17 (F := Ideal) x1 x5 x6 (ix2 b q) = _
  rw [val_main_v15_apply, val_main_v17_apply, e15, e17, s2_eq, gb2, gb2]

/-- The invariant readout of row b. -/
theorem inv_eq (b : Fin 65536) (j : Fin 128) :
    val_main_v19 (F := Ideal) x0 x1 x2 x3 x4 x5 x6 x7 (ix2 b j) = Spec.inv (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x7 (ix2 a n)) j := by
  unfold Spec.inv
  rw [val_main_v19_apply]
  refine Finset.sum_congr rfl fun q _ => ?_
  have el : lidx_main_v19 (ix2 b j) q = ix2 b q := funext fun a => match a with | ⟨0, _⟩ => rfl | ⟨1, _⟩ => rfl
  have er : ridx_main_v19 (ix2 b j) q = ix2 q j := funext fun a => match a with | ⟨0, _⟩ => rfl | ⟨1, _⟩ => rfl
  rw [el, er, s3_eq]

/-- The mixing weights of row b. -/
theorem hw_eq (b : Fin 65536) (n : Fin 2048) :
    val_main_v24 (F := Ideal) x0 x1 x2 x3 x4 x5 x6 x8 (ix2 b n) = Spec.hw (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) n := by
  unfold Spec.hw
  rw [val_main_v24_apply]
  refine Finset.sum_congr rfl fun q _ => ?_
  have el : lidx_main_v24 (ix2 b n) q = ix2 b q := funext fun a => match a with | ⟨0, _⟩ => rfl | ⟨1, _⟩ => rfl
  have er : ridx_main_v24 (ix2 b n) q = ix2 q n := funext fun a => match a with | ⟨0, _⟩ => rfl | ⟨1, _⟩ => rfl
  rw [el, er, s3_eq]

/-- The 3-component vectors of row b mixed by the row's own weights, before the normalisation. -/
theorem v29_eq (b : Fin 65536) (o : Fin 32) (d : Fin 3) :
    val_main_v29 (F := Ideal) x0 x1 x2 x3 x4 x5 x6 x8 (ix3 b o d)
      = ∑ i : Fin 32, Spec.hw (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) (Spec.wIdx1 i o) * x0 (ix2 b (Spec.eIdx1 i d)) := by
  rw [val_main_v29_apply]
  refine Finset.sum_congr rfl fun k _ => ?_
  have hb := b.isLt; have hk := k.isLt; have ho := o.isLt; have hd := d.isLt
  have el : idx_main_v25 (idx_main_v26 (lidx_main_v29 (ix3 b o d) k)) = ix2 b (Spec.wIdx1 k o) :=
    funext fun a => match a with
    | ⟨0, _⟩ => Fin.ext (by show ((b.val * 32 + k.val) * 32 + o.val) / 1024 = b.val; omega)
    | ⟨1, _⟩ => Fin.ext (by show ((b.val * 32 + k.val) * 32 + o.val) % 1024 = 32 * k.val + o.val; omega)
  have er : idx_main_v1 (idx_main_v20 (idx_main_v21 (ridx_main_v29 (ix3 b o d) k))) = ix2 b (Spec.eIdx1 k d) :=
    funext fun a => match a with
    | ⟨0, _⟩ => Fin.ext (by show ((b.val * 32 + k.val) * 3 + d.val) / 96 = b.val; omega)
    | ⟨1, _⟩ => Fin.ext (by show 256 + ((b.val * 32 + k.val) * 3 + d.val) % 96 = 256 + 3 * k.val + d.val; omega)
  rw [val_main_v26_apply, val_main_v25_apply, el, hw_eq, val_main_v21_apply, val_main_v20_apply, val_main_v1_apply, er]

/-- The 5-component vectors of row b mixed by the row's own weights, before the normalisation. -/
theorem v32_eq (b : Fin 65536) (o : Fin 32) (d : Fin 5) :
    val_main_v32 (F := Ideal) x0 x1 x2 x3 x4 x5 x6 x8 (ix3 b o d)
      = ∑ i : Fin 32, Spec.hw (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) (Spec.wIdx2 i o) * x0 (ix2 b (Spec.eIdx2 i d)) := by
  rw [val_main_v32_apply]
  refine Finset.sum_congr rfl fun k _ => ?_
  have hb := b.isLt; have hk := k.isLt; have ho := o.isLt; have hd := d.isLt
  have el : idx_main_v27 (idx_main_v28 (lidx_main_v32 (ix3 b o d) k)) = ix2 b (Spec.wIdx2 k o) :=
    funext fun a => match a with
    | ⟨0, _⟩ => Fin.ext (by show ((b.val * 32 + k.val) * 32 + o.val) / 1024 = b.val; omega)
    | ⟨1, _⟩ => Fin.ext (by show 1024 + ((b.val * 32 + k.val) * 32 + o.val) % 1024 = 1024 + 32 * k.val + o.val; omega)
  have er : idx_main_v1 (idx_main_v22 (idx_main_v23 (ridx_main_v32 (ix3 b o d) k))) = ix2 b (Spec.eIdx2 k d) :=
    funext fun a => match a with
    | ⟨0, _⟩ => Fin.ext (by show ((b.val * 32 + k.val) * 5 + d.val) / 160 = b.val; omega)
    | ⟨1, _⟩ => Fin.ext (by show 256 + (96 + ((b.val * 32 + k.val) * 5 + d.val) % 160) = 352 + 5 * k.val + d.val; omega)
  rw [val_main_v28_apply, val_main_v27_apply, el, hw_eq, val_main_v23_apply, val_main_v22_apply, val_main_v1_apply, er]

/-- The mixed 3-component vectors of row b. -/
theorem y1_eq (b : Fin 65536) (o : Fin 32) (d : Fin 3) :
    val_main_v31 (F := Ideal) x0 x1 x2 x3 x4 x5 x6 x8 (ix3 b o d) = Spec.y1 (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) o d := by
  unfold Spec.y1
  show val_main_v29 (F := Ideal) x0 x1 x2 x3 x4 x5 x6 x8 (ix3 b o d) * val_main_v30 (F := Ideal) (ix3 b o d) = _
  rw [v29_eq, val_main_v30_apply]
  rfl

/-- The mixed 5-component vectors of row b. -/
theorem y2_eq (b : Fin 65536) (o : Fin 32) (d : Fin 5) :
    val_main_v34 (F := Ideal) x0 x1 x2 x3 x4 x5 x6 x8 (ix3 b o d) = Spec.y2 (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) o d := by
  unfold Spec.y2
  show val_main_v32 (F := Ideal) x0 x1 x2 x3 x4 x5 x6 x8 (ix3 b o d) * val_main_v33 (F := Ideal) (ix3 b o d) = _
  rw [v32_eq, val_main_v33_apply]
  rfl

/-- The mixed 3-component vectors laid out with the output vector as the major coordinate. -/
theorem v35_eq (b : Fin 65536) (c : Fin 96) :
    val_main_v35 (F := Ideal) x0 x1 x2 x3 x4 x5 x6 x8 (ix2 b c)
      = Spec.y1 (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) ⟨c.val / 3, by omega⟩ ⟨c.val % 3, by omega⟩ := by
  have hb := b.isLt; have hc := c.isLt
  have e : idx_main_v35 (ix2 b c) = ix3 b (⟨c.val / 3, by omega⟩ : Fin 32) (⟨c.val % 3, by omega⟩ : Fin 3) :=
    funext fun a => match a with
    | ⟨0, _⟩ => Fin.ext (by show (b.val * 96 + c.val) / 96 = b.val; omega)
    | ⟨1, _⟩ => Fin.ext (by show (b.val * 96 + c.val) / 3 % 32 = c.val / 3; omega)
    | ⟨2, _⟩ => Fin.ext (by show (b.val * 96 + c.val) % 3 = c.val % 3; omega)
  rw [val_main_v35_apply, e, y1_eq]

/-- The mixed 5-component vectors laid out with the output vector as the major coordinate. -/
theorem v36_eq (b : Fin 65536) (c : Fin 160) :
    val_main_v36 (F := Ideal) x0 x1 x2 x3 x4 x5 x6 x8 (ix2 b c)
      = Spec.y2 (fun k => x0 (ix2 b k)) (fun k => x1 (ix2 b k)) (fun a n => x2 (ix2 a n)) (fun n => x3 (ix1 n)) (fun a n => x4 (ix2 a n)) (fun a n => x5 (ix2 a n)) (fun n => x6 (ix1 n)) (fun a n => x8 (ix2 a n)) ⟨c.val / 5, by omega⟩ ⟨c.val % 5, by omega⟩ := by
  have hb := b.isLt; have hc := c.isLt
  have e : idx_main_v36 (ix2 b c) = ix3 b (⟨c.val / 5, by omega⟩ : Fin 32) (⟨c.val % 5, by omega⟩ : Fin 5) :=
    funext fun a => match a with
    | ⟨0, _⟩ => Fin.ext (by show (b.val * 160 + c.val) / 160 = b.val; omega)
    | ⟨1, _⟩ => Fin.ext (by show (b.val * 160 + c.val) / 5 % 32 = c.val / 5; omega)
    | ⟨2, _⟩ => Fin.ext (by show (b.val * 160 + c.val) % 5 = c.val % 5; omega)
  rw [val_main_v36_apply, e, y2_eq]

/-- The first 96 columns of the joined vectors are the 3-component ones. -/
theorem v37_left (b : Fin 65536) (c : Fin 256) (h : c.val < 96) :
    val_main_v37 (F := Ideal) x0 x1 x2 x3 x4 x5 x6 x8 (ix2 b c) = val_main_v35 (F := Ideal) x0 x1 x2 x3 x4 x5 x6 x8 (ix2 b (⟨c.val, h⟩ : Fin 96)) := by
  unfold val_main_v37
  exact concatenate_pair_apply_left 1 (val_main_v35 (F := Ideal) x0 x1 x2 x3 x4 x5 x6 x8) (val_main_v36 (F := Ideal) x0 x1 x2 x3 x4 x5 x6 x8)
    Gen.concatenates_S65536x96_S65536x160_S65536x256_d1 (ix2 b c) rfl (ix2 b (⟨c.val, h⟩ : Fin 96)) (fun a => by
      match a with
      | ⟨0, _⟩ => rfl
      | ⟨1, _⟩ => rfl)

/-- The last 160 columns of the joined vectors are the 5-component ones. -/
theorem v37_right (b : Fin 65536) (c : Fin 256) (h : 96 ≤ c.val) :
    val_main_v37 (F := Ideal) x0 x1 x2 x3 x4 x5 x6 x8 (ix2 b c)
      = val_main_v36 (F := Ideal) x0 x1 x2 x3 x4 x5 x6 x8 (ix2 b (⟨c.val - 96, by omega⟩ : Fin 160)) := by
  unfold val_main_v37
  exact concatenate_pair_apply_right 1 (val_main_v35 (F := Ideal) x0 x1 x2 x3 x4 x5 x6 x8) (val_main_v36 (F := Ideal) x0 x1 x2 x3 x4 x5 x6 x8)
    Gen.concatenates_S65536x96_S65536x160_S65536x256_d1 (ix2 b c) rfl rfl (ix2 b (⟨c.val - 96, by omega⟩ : Fin 160))
    (fun a ha => by
      match a with
      | ⟨0, _⟩ => rfl
      | ⟨1, _⟩ => exact absurd rfl ha)
    (by show c.val - 96 + 96 = c.val; omega)

/-- The first 128 columns of the result are the invariant readout. -/
theorem v38_left (b : Fin 65536) (j : Fin 384) (h : j.val < 128) :
    val_main_v38 (F := Ideal) x0 x1 x2 x3 x4 x5 x6 x7 x8 (ix2 b j) = val_main_v19 (F := Ideal) x0 x1 x2 x3 x4 x5 x6 x7 (ix2 b (⟨j.val, h⟩ : Fin 128)) := by
  unfold val_main_v38
  exact concatenate_pair_apply_left 1 (val_main_v19 (F := Ideal) x0 x1 x2 x3 x4 x5 x6 x7) (val_main_v37 (F := Ideal) x0 x1 x2 x3 x4 x5 x6 x8)
    Gen.concatenates_S65536x128_S65536x256_S65536x384_d1 (ix2 b j) rfl (ix2 b (⟨j.val, h⟩ : Fin 128)) (fun a => by
      match a with
      | ⟨0, _⟩ => rfl
      | ⟨1, _⟩ => rfl)

/-- The last 256 columns of the result are the joined vectors. -/
theorem v38_right (b : Fin 65536) (j : Fin 384) (h : 128 ≤ j.val) :
    val_main_v38 (F := Ideal) x0 x1 x2 x3 x4 x5 x6 x7 x8 (ix2 b j)
      = val_main_v37 (F := Ideal) x0 x1 x2 x3 x4 x5 x6 x8 (ix2 b (⟨j.val - 128, by omega⟩ : Fin 256)) := by
  unfold val_main_v38
  exact concatenate_pair_apply_right 1 (val_main_v19 (F := Ideal) x0 x1 x2 x3 x4 x5 x6 x7) (val_main_v37 (F := Ideal) x0 x1 x2 x3 x4 x5 x6 x8)
    Gen.concatenates_S65536x128_S65536x256_S65536x384_d1 (ix2 b j) rfl rfl (ix2 b (⟨j.val - 128, by omega⟩ : Fin 256))
    (fun a ha => by
      match a with
      | ⟨0, _⟩ => rfl
      | ⟨1, _⟩ => exact absurd rfl ha)
    (by show j.val - 128 + 128 = j.val; omega)

/-- The reference program's result at row b, column j, is the row function of that row at j. -/
theorem row_eq (b : Fin 65536) (j : Fin 384) :
    val_main_v38 (F := Ideal) x0 x1 x2 x3 x4 x5 x6 x7 x8 (ix2 b j)
      = Spec.out (fun k => x0 (ix2 b k)) (fun k => x1 (ix2 b k)) (fun a n => x2 (ix2 a n)) (fun n => x3 (ix1 n))
          (fun a n => x4 (ix2 a n)) (fun a n => x5 (ix2 a n)) (fun n => x6 (ix1 n)) (fun a n => x7 (ix2 a n)) (fun a n => x8 (ix2 a n)) j := by
  have hj := j.isLt
  by_cases h1 : j.val < 128
  · rw [v38_left _ _ _ _ _ _ _ _ _ b j h1, inv_eq, Spec.out_inv _ _ _ _ _ _ _ _ _ j h1]
  · by_cases h2 : j.val < 224
    · rw [v38_right _ _ _ _ _ _ _ _ _ b j (by omega), v37_left _ _ _ _ _ _ _ _ b _ (by show j.val - 128 < 96; omega), v35_eq]
      exact (Spec.out_y1 _ _ _ _ _ _ _ _ _ j _ _ (by show j.val = 128 + 3 * ((j.val - 128) / 3) + (j.val - 128) % 3; omega)).symm
    · rw [v38_right _ _ _ _ _ _ _ _ _ b j (by omega), v37_right _ _ _ _ _ _ _ _ b _ (by show 96 ≤ j.val - 128; omega), v36_eq]
      exact (Spec.out_y2 _ _ _ _ _ _ _ _ _ j _ _ (by show j.val = 224 + 5 * ((j.val - 128 - 96) / 5) + (j.val - 128 - 96) % 5; omega)).symm

end Cert.ReferenceIdeal.RefRow
end
-- ==== Proof.lean ====
/-
  The certificate of a batched conditioned layer with per-row mixing of its vector features.

  Both programs take a [65536, 512] feature array (256 scalars, then 32 three-component and 32 five-component
  vectors per row), a [65536, 64] conditioning array and seven weight arrays, and return a [65536, 384] array.
  Row by row both compute the row function of Proof/Spec.lean: two conditioning projections scale and shift the
  scalars around a linear layer; the result is read out through one matrix (128 entries) and, through another,
  gives the row its own 2 x 32 x 32 mixing weights, with which the row's vectors are mixed, the i-th input
  vector contributing to the o-th output vector with weight (i, o), and scaled by the constant both programs spell
  with the same binary word.

  The kernel walks the rows in 64 blocks of 1024; per block it forms the products on narrow-format copies of its
  operands (the identity on the extended reals) and accumulates the mixing as 32 outer products added one after the
  other into a zero accumulator.  The reference forms the mixing as one batched contraction over i.  A sum of 32
  terms added left to right from zero is the sum over i, so the two agree entry by entry with no law beyond those
  of a commutative additive monoid; the precondition is never opened.

  Proof/KerBlock.lean: the kernel's stored block, entry by entry, is the row function (over Proof/KerRow.lean, the
  products and scale-and-shift steps, and Proof/TailY1.lean, Proof/TailY2.lean, the accumulation and the layout).
  Proof/Blocks.lean: the blocks tile the output array, so the array ends at the whole-array function.
  Proof/RefRow.lean: the reference's result, entry by entry, is the row function.
-/
import proofs.«173086_j69234872812251_1_alg».proof.Defs
import proofs.«173086_j69234872812251_1_alg».proof.Proof.Gen.Kernel
import proofs.«173086_j69234872812251_1_alg».proof.Proof.Gen.Kernel.Skeleton
import proofs.«173086_j69234872812251_1_alg».proof.Proof.Gen.Kernel.Launch
import proofs.«173086_j69234872812251_1_alg».proof.Proof.Gen.Kernel.Points
import proofs.«173086_j69234872812251_1_alg».proof.Proof.Gen.Kernel.Frame
import proofs.«173086_j69234872812251_1_alg».proof.Proof.Gen.KernelIdeal
import proofs.«173086_j69234872812251_1_alg».proof.Proof.Gen.KernelIdeal.Skeleton
import proofs.«173086_j69234872812251_1_alg».proof.Proof.Gen.KernelIdeal.Launch
import proofs.«173086_j69234872812251_1_alg».proof.Proof.Gen.KernelIdeal.Points
import proofs.«173086_j69234872812251_1_alg».proof.Proof.Gen.KernelIdeal.Frame
import proofs.«173086_j69234872812251_1_alg».proof.Proof.Gen.ReferenceIdeal
import proofs.«173086_j69234872812251_1_alg».proof.Proof.Gen.KernelIdeal.Value
import proofs.«173086_j69234872812251_1_alg».proof.Proof.Gen.ReferenceIdeal.Run
import proofs.«173086_j69234872812251_1_alg».proof.Proof.Gen.ReferenceIdeal.Read
import proofs.«173086_j69234872812251_1_alg».proof.Proof.Gen.Pre_finite_inputs
import proofs.«173086_j69234872812251_1_alg».proof.Proof.KerBlock
import proofs.«173086_j69234872812251_1_alg».proof.Proof.Blocks
import proofs.«173086_j69234872812251_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k [hKernel : Cert.Kernel.Facts] [hPre : Cert.Pre_finite_inputs.Facts] : Cert.frame_Kernel :=
  fun m ρ _ => Cert.Kernel.Gen.frame m ρ

/-- The idealized kernel runs and leaves its arguments unchanged. -/
theorem frame_ki [hKernelIdeal : Cert.KernelIdeal.Facts] [hPre : Cert.Pre_finite_inputs.Facts] : Cert.frame_KernelIdeal :=
  fun m ρ _ => Cert.KernelIdeal.Gen.frame m ρ

/-- The reference runs and leaves its arguments unchanged: its run with the result dropped. -/
theorem frame_ri [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From arguments that agree, the kernel's output array (the whole-array function, by the blocks) and the reference's
    result (the same function, entry by entry) are equal. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.KernelIdeal.Blocks.Gm m c, Cert.KernelIdeal.Blocks.run m ρ Cert.KernelIdeal.KerBlock.block_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq]
  obtain ⟨h0, h1, h2, h3, h4, h5, h6, h7, h8⟩ := hagree c
  rw [h0, h1, h2, h3, h4, h5, h6, h7, h8]
  funext i
  obtain ⟨b, j, rfl⟩ : ∃ (b : Fin 65536) (j : Fin 384), i = ix2 b j := ⟨i 0, i 1, eq_ix2 i⟩
  rw [Cert.ReferenceIdeal.RefRow.row_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
